-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x32 : Shape := ⟨2, ![500000, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_c_14 : IVec S_ 32 := constantI S_ 32 0#32
  let main_v39 : IVec S2x500000 32 := broadcastInDim S2x500000 ![] bcast_S_S2x500000 main_c_14
  let main_v40 : IVec S2x500000 1 := cmpi .sge main_arg1 main_v39
  let main_c_15 : IVec S_ 1 := constantI S_ 1 1#1
  let main_v41 : IVec S_ 1 := (fun x v => Host.reduce IntOp.andi x v reducesTo_S2x500000_S_d0_1 h_S_) main_v40 main_c_15
  let main_v42 : IVec S_ 1 := andi main_v38 main_v41
  main_v42

def fn_part1 {F : FTy → Type} [FloatOps F] (main_arg1 : IVec S2x500000 32) (main_arg5 : FVec F S256x128 .f32) (main_arg6 : FVec F S128 .f32) (main_arg7 : FVec F S128x2 .f32) (main_arg8 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x500000 32) (main_arg2 : FVec F S500000x32 .f32) (main_arg3 : FVec F S288x256 .f32) (main_arg4 : FVec F S256 .f32) (main_arg5 : FVec F S256x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x32 .f32 := Host.absf main_arg2
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S288x256 .f32 := Host.absf main_arg3
  let main_cst_2 : FVec F S_ .f32 := constant S_ .f32 0x7F800000#32
  let main_v10 : FVec F S288x256 .f32 := broadcastInDim S288x256 ![] bcast_S_S288x256 main_cst_2
  let main_v11 : IVec S288x256 1 := cmpf .olt main_v9 main_v10
  let main_c_3 : IVec S_ 1 := constantI S_ 1 1#1
  let main_v12 : IVec S_ 1 := (fun x v => Host.reduce IntOp.andi x v reducesTo_S288x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x500000 : Shape := ⟨2, ![2, 500000]⟩
abbrev S500000x32 : Shape := ⟨2, ![500000, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S2x507904 : Shape := ⟨2, ![2, 507904]⟩
abbrev S507904x32 : Shape := ⟨2, ![507904, 32]⟩
abbrev S1x507904 : Shape := ⟨2, ![1, 507904]⟩
abbrev S507904 : Shape := ⟨1, ![507904]⟩
abbrev S507904x1 : Shape := ⟨2, ![507904, 1]⟩
abbrev S507904x128 : Shape := ⟨2, ![507904, 128]⟩
abbrev S128x256 : Shape := ⟨2, ![128, 256]⟩
abbrev S32x256 : Shape := ⟨2, ![32, 256]⟩
abbrev S1x256 : Shape := ⟨2, ![1, 256]⟩
abbrev S1x128 : Shape := ⟨2, ![1, 128]⟩
abbrev S1x2 : Shape := ⟨2, ![1, 2]⟩
abbrev S7936x128 : Shape := ⟨2, ![7936, 128]⟩
abbrev S8192x128 : Shape := ⟨2, ![8192, 128]⟩
abbrev S8192x32 : Shape := ⟨2, ![8192, 32]⟩
abbrev S128x128 : Shape := ⟨2, ![128, 128]⟩
abbrev S8192x256 : Shape := ⟨2, ![8192, 256]⟩
abbrev S8192x2 : Shape := ⟨2, ![8192, 2]⟩
abbrev S507904x2 : Shape := ⟨2, ![507904, 2]⟩
abbrev S500000x2 : Shape := ⟨2, ![500000, 2]⟩

abbrev nBuf : Space → Nat
  | .hbm => 39
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S288x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S_, .i32⟩
  | .hbm, ⟨11, _⟩ => ⟨S2x507904, .i32⟩
  | .hbm, ⟨12, _⟩ => ⟨S_, .f32⟩
  | .hbm, ⟨13, _⟩ => ⟨S_, .f32⟩
  | .hbm, ⟨14, _⟩ => ⟨S507904x32, .f32⟩
  | .hbm, ⟨15, _⟩ => ⟨S100000x128, .bf16⟩
  | .hbm, ⟨16, _⟩ => ⟨S507904x32, .bf16⟩
  | .hbm, ⟨17, _⟩ => ⟨S1x507904, .i32⟩
  | .hbm, ⟨18, _⟩ => ⟨S507904, .i32⟩
  | .hbm, ⟨19, _⟩ => ⟨S507904x1, .i32⟩
  | .hbm, ⟨20, _⟩ => ⟨S507904x128, .bf16⟩
  | .hbm, ⟨21, _⟩ => ⟨S1x507904, .i32⟩
  | .hbm, ⟨22, _⟩ => ⟨S507904, .i32⟩
  | .hbm, ⟨23, _⟩ => ⟨S507904x1, .i32⟩
  | .hbm, ⟨24, _⟩ => ⟨S507904x128, .bf16⟩
  | .hbm, ⟨25, _⟩ => ⟨S128x256, .f32⟩
  | .hbm, ⟨26, _⟩ => ⟨S128x256, .bf16⟩
  | .hbm, ⟨27, _⟩ => ⟨S128x256, .f32⟩
  | .hbm, ⟨28, _⟩ => ⟨S128x256, .bf16⟩
  | .hbm, ⟨29, _⟩ => ⟨S32x256, .f32⟩
  | .hbm, ⟨30, _⟩ => ⟨S32x256, .bf16⟩
  | .hbm, ⟨31, _⟩ => ⟨S256x128, .bf16⟩
  | .hbm, ⟨32, _⟩ => ⟨S128x2, .bf16⟩
  | .hbm, ⟨33, _⟩ => ⟨S1x256, .f32⟩
  | .hbm, ⟨34, _⟩ => ⟨S1x128, .f32⟩
  | .hbm, ⟨35, _⟩ => ⟨S1x2, .f32⟩
  | .hbm, ⟨36, _⟩ => ⟨S7936x128, .f32⟩
  | .hbm, ⟨37, _⟩ => ⟨S507904x2, .f32⟩
  | .hbm, ⟨38, _⟩ => ⟨S500000x2, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x32, .bf16⟩
  | .local _ .vmem, ⟨5, _⟩ => ⟨S8192x32, .bf16⟩
  | .local _ .vmem, ⟨6, _⟩ => ⟨S128x256, .bf16⟩
  | .local _ .vmem, ⟨7, _⟩ => ⟨S128x256, .bf16⟩
  | .local _ .vmem, ⟨8, _⟩ => ⟨S32x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S128x2, .bf16⟩
  | .local _ .vmem, ⟨13, _⟩ => ⟨S1x2, .f32⟩
  | .local _ .vmem, ⟨14, _⟩ => ⟨S128x128, .f32⟩
  | .local _ .vmem, ⟨15, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  pads_S2x500000_S2x507904_000_079040 : S2x500000.Pads (![0, 0] : Fin 2 → Nat) ![0, 7904] ![0, 0] S2x507904
  h_S_ : 0 < S_.numel
  pads_S500000x32_S507904x32_079040_000 : S500000x32.Pads (![0, 0] : Fin 2 → Nat) ![7904, 0] ![0, 0] S507904x32
  bitsLt_bf16_f32 : FTy.bits .bf16 < FTy.bits .f32
  slices_S2x507904_S1x507904_0_0 : S2x507904.Slices ![0, 0] S1x507904
  shapeCasts_S1x507904_S507904 : S1x507904.ShapeCasts S507904
  bcast_S507904_S507904x1_0 : S507904.BroadcastsInDim S507904x1 (![0] : Fin 1 → Fin S507904x1.rank)
  slices_S2x507904_S1x507904_1_0 : S2x507904.Slices ![1, 0] S1x507904
  slices_S288x256_S128x256_0_0 : S288x256.Slices ![0, 0] S128x256
  slices_S288x256_S128x256_128_0 : S288x256.Slices ![128, 0] S128x256
  slices_S288x256_S32x256_256_0 : S288x256.Slices ![256, 0] S32x256
  shapeCasts_S256_S1x256 : S256.ShapeCasts S1x256
  shapeCasts_S128_S1x128 : S128.ShapeCasts S1x128
  shapeCasts_S2_S1x2 : S2.ShapeCasts S1x2
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  shapeCasts_S8192x2_S128x128 : S8192x2.ShapeCasts S128x128
  inb_S128x128_S128x128_0_0 : ∀ a, (![0, 0] : Fin 2 → Nat) a + S128x128.size a ≤ S128x128.size a
  h_S128x128 : 0 < S128x128.numel
  shapeCasts_S7936x128_S507904x2 : S7936x128.ShapeCasts S507904x2
  slices_S507904x2_S500000x2_0_0 : S507904x2.Slices ![0, 0] S500000x2
  gather_S100000x128_S507904x1_S507904x128_1_0_n_n_0_1_1128_wf : GatherDims.WF S100000x128 S507904x1 S507904x128 [1] [0] [] [0] [] 1 ![1, 128]
  dot_S8192x128_S128x256_S8192x256_1_0_0_1_n_n_wf : DotDims.WF S8192x128 S128x256 S8192x256 [1] [0] [0] [1] [] []
  dot_S8192x32_S32x256_S8192x256_1_0_0_1_n_n_wf : DotDims.WF S8192x32 S32x256 S8192x256 [1] [0] [0] [1] [] []
  dot_S8192x256_S256x128_S8192x128_1_0_0_1_n_n_wf : DotDims.WF S8192x256 S256x128 S8192x128 [1] [0] [0] [1] [] []
  dot_S8192x128_S128x2_S8192x2_1_0_0_1_n_n_wf : DotDims.WF S8192x128 S128x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S507904x128.size a
  hwx0_0 : ∀ i : grid0.Coords, EltTy.bits .bf16 = 32 ∨ (Rect.block (s := S507904x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S507904x128.size a
  hwx0_1 : ∀ i : grid0.Coords, EltTy.bits .bf16 = 32 ∨ (Rect.block (s := S507904x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S507904x32.size a
  hwx0_2 : ∀ i : grid0.Coords, EltTy.bits .bf16 = 32 ∨ (Rect.block (s := S507904x32) S8192x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .bf16 = 32 ∨ (Rect.block (s := S32x256) S32x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x2.size a ≤ S128x2.size a
  hwx0_9 : ∀ i : grid0.Coords, EltTy.bits .bf16 = 32 ∨ (Rect.block (s := S128x2) S128x2.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S7936x128.size a
  hwx0_11 : ∀ i : grid0.Coords, EltTy.bits .f32 = 32 ∨ (Rect.block (s := S7936x128) S128x128.size (cc0_transform_11 i) (hinb0_11 i)).WholeWords (EltTy.packing .f32)

variable [Facts₀]

def gather_S100000x128_S507904x1_S507904x128_1_0_n_n_0_1_1128 : GatherDims S100000x128 S507904x1 S507904x128 where
  offsetDims := [1]
  collapsedSliceDims := [0]
  operandBatchingDims := []
  startIndicesBatchingDims := []
  startIndexMap := [0]
  indexVectorDim := 1
  sliceSizes := ![1, 128]
  wf := gather_S100000x128_S507904x1_S507904x128_1_0_n_n_0_1_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S128x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x32 : Shape := ⟨2, ![500000, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x288 : Shape := ⟨2, ![500000, 288]⟩
abbrev S500000x256 : Shape := ⟨2, ![500000, 256]⟩
abbrev S1x256 : Shape := ⟨2, ![1, 256]⟩
abbrev S1x128 : Shape := ⟨2, ![1, 128]⟩
abbrev S500000x2 : Shape := ⟨2, ![500000, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S288x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S1x500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S500000x288, .f32⟩
  | .hbm, ⟨32, _⟩ => ⟨S500000x256, .f32⟩
  | .hbm, ⟨33, _⟩ => ⟨S1x256, .f32⟩
  | .hbm, ⟨34, _⟩ => ⟨S500000x256, .f32⟩
  | .hbm, ⟨35, _⟩ => ⟨S500000x256, .f32⟩
  | .hbm, ⟨36, _⟩ => ⟨S_, .f32⟩
  | .hbm, ⟨37, _⟩ => ⟨S500000x256, .f32⟩
  | .hbm, ⟨38, _⟩ => ⟨S500000x256, .f32⟩
  | .hbm, ⟨39, _⟩ => ⟨S500000x128, .f32⟩
  | .hbm, ⟨40, _⟩ => ⟨S1x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S500000x128, .f32⟩
  | .hbm, ⟨45, _⟩ => ⟨S500000x128, .f32⟩
  | .hbm, ⟨46, _⟩ => ⟨S500000x2, .f32⟩
  | .hbm, ⟨47, _⟩ => ⟨S1x2, .f32⟩
  | .hbm, ⟨48, _⟩ => ⟨S500000x2, .f32⟩
  | .hbm, ⟨49, _⟩ => ⟨S500000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x32_S500000x288_d1 : Shape.Concatenates [S500000x128, S500000x128, S500000x32] S500000x288 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S100000x128_S500000x1_S500000x128_1_0_n_n_0_1_1128_wf : GatherDims.WF S100000x128 S500000x1 S500000x128 [1] [0] [] [0] [] 1 ![1, 128]
  dot_S500000x288_S288x256_S500000x256_1_0_0_1_n_n_wf : DotDims.WF S500000x288 S288x256 S500000x256 [1] [0] [0] [1] [] []
  dot_S500000x256_S256x128_S500000x128_1_0_0_1_n_n_wf : DotDims.WF S500000x256 S256x128 S500000x128 [1] [0] [0] [1] [] []
  dot_S500000x128_S128x2_S500000x2_1_0_0_1_n_n_wf : DotDims.WF S500000x128 S128x2 S500000x2 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x288_S288x256_S500000x256_1_0_0_1_n_n : DotDims S500000x288 S288x256 S500000x256 where
  lhsContracting := [1]
  rhsContracting := [0]
  lhsNonContracting := [0]
  rhsNonContracting := [1]
  lhsBatch := []
  rhsBatch := []
  wf := dot_S500000x288_S288x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.Spec.lean ====
/-
  The specification: what both programs compute, as ONE function of the nine argument arrays.

  For edge `e` and class `o` the result is a three-layer perceptron of the row
  `[emb[src e] ‖ emb[dst e] ‖ ef[e]]` (128 + 128 + 32 = 288 entries):
    h1 = max (row · w1 + b1) 0   (256 entries),
    h2 = max (h1 · w2 + b2) 0    (128 entries),
    out = h2 · w3 + b3           (2 entries),
  all on the extended reals. The first product is written here as the sum of its three pieces — over the source
  row against rows 0…127 of `w1`, the destination row against rows 128…255, the edge features against rows
  256…287 — which is how the kernel computes it; the reference's single sum over 288 is the same number because
  addition of extended reals is commutative and associative (`sum_split288`).

  A node id is read signed and clamped into the table's rows (`rowOf`), which is what the gather does with it.
-/
import Idealize.ShloMosaic.PureOps.Ideal
import Idealize.ShloMosaic.Lib.ValueIdx

noncomputable section

namespace Cert.EdgeMlp

open Idealize.ShloMosaic Idealize.ShloMosaic.ValueIdx

abbrev T100000x128 : Shape := ⟨2, ![100000, 128]⟩
abbrev T2x500000 : Shape := ⟨2, ![2, 500000]⟩
abbrev T500000x32 : Shape := ⟨2, ![500000, 32]⟩
abbrev T288x256 : Shape := ⟨2, ![288, 256]⟩
abbrev T256 : Shape := ⟨1, ![256]⟩
abbrev T256x128 : Shape := ⟨2, ![256, 128]⟩
abbrev T128 : Shape := ⟨1, ![128]⟩
abbrev T128x2 : Shape := ⟨2, ![128, 2]⟩
abbrev T2 : Shape := ⟨1, ![2]⟩
abbrev T500000x2 : Shape := ⟨2, ![500000, 2]⟩

/-- The zero both programs compare against in their rectifiers. -/
abbrev zero : EReal := Ideal.ofBits .f32 0x00000000#32

/-- One edge's perceptron from the three pieces of its input row and the three row blocks of the first weight matrix. -/
def mlp3 (s d : Fin 128 → EReal) (f : Fin 32 → EReal)
    (wa wb : Fin 128 → Fin 256 → EReal) (wc : Fin 32 → Fin 256 → EReal) (b1 : Fin 256 → EReal)
    (w2 : Fin 256 → Fin 128 → EReal) (b2 : Fin 128 → EReal)
    (w3 : Fin 128 → Fin 2 → EReal) (b3 : Fin 2 → EReal) (o : Fin 2) : EReal :=
  (∑ k3 : Fin 128,
      max ((∑ k2 : Fin 256,
          max ((((∑ k : Fin 128, s k * wa k k2) + (∑ k : Fin 128, d k * wb k k2)) + (∑ k : Fin 32, f k * wc k k2)) + b1 k2) zero
            * w2 k2 k3) + b2 k3) zero
        * w3 k3 o) + b3 o

/-- A node id as a row of the 100000-row table: read signed, clamped to 0 … 99999. -/
def rowOf (w : BitVec 32) : Fin 100000 := ⟨min w.toInt.toNat 99999, by omega⟩

/-- Rows 0…127, 128…255 and 256…287 of the first weight matrix. -/
abbrev rowA (k : Fin 128) : Fin 288 := ⟨k.val, by omega⟩
abbrev rowB (k : Fin 128) : Fin 288 := ⟨128 + k.val, by omega⟩
abbrev rowC (k : Fin 32) : Fin 288 := ⟨256 + k.val, by omega⟩

/-- The whole result: entry (e, o) is edge e's perceptron at class o. -/
def edgeOut (emb : T100000x128.Idx → EReal) (idx : T2x500000.Idx → BitVec 32) (ef : T500000x32.Idx → EReal)
    (w1 : T288x256.Idx → EReal) (b1 : T256.Idx → EReal) (w2 : T256x128.Idx → EReal) (b2 : T128.Idx → EReal)
    (w3 : T128x2.Idx → EReal) (b3 : T2.Idx → EReal) : T500000x2.Idx → EReal :=
  fun i =>
    mlp3 (fun k => emb (ix2 (rowOf (idx (ix2 (0 : Fin 2) (i 0)))) k))
      (fun k => emb (ix2 (rowOf (idx (ix2 (1 : Fin 2) (i 0)))) k))
      (fun k => ef (ix2 (i 0) k))
      (fun k k2 => w1 (ix2 (rowA k) k2)) (fun k k2 => w1 (ix2 (rowB k) k2)) (fun k k2 => w1 (ix2 (rowC k) k2))
      (fun k2 => b1 (ix1 k2)) (fun k2 k3 => w2 (ix2 k2 k3)) (fun k3 => b2 (ix1 k3))
      (fun k3 o => w3 (ix2 k3 o)) (fun o => b3 (ix1 o)) (i 1)

/-- A sum over 288 entries is the sum of its first 128, its next 128 and its last 32: no finiteness is needed,
    only that addition is commutative and associative. -/
theorem sum_split288 {M : Type*} [AddCommMonoid M] (g : Fin 288 → M) :
    (∑ k : Fin 288, g k) = ((∑ k : Fin 128, g (rowA k)) + (∑ k : Fin 128, g (rowB k))) + (∑ k : Fin 32, g (rowC k)) := by
  have h := Fin.sum_univ_add (M := M) (a := 128 + 128) (b := 32) (fun k => g k)
  have h' := Fin.sum_univ_add (M := M) (a := 128) (b := 128) (fun k => g (Fin.castAdd 32 k))
  rw [h, h']
  rfl

end Cert.EdgeMlp

end
-- ==== Proof.Payload.lean ====
/-
  The kernel body's one store, read at an index of the 128 × 128 output block.
  Entry (p, q) of the block is entry (r, o) of the 8192 × 2 result of the three layers, with r = 64·p + q / 2 and
  o = q mod 2 (the block is that result laid out row-major, 64 edges to a row), and entry (r, o) is the perceptron
  of row r of the three input blocks.
-/
import proofs.«403894_j12335146074240_3_alg».proof.Proof.Gen.KernelIdeal.Skeleton
import proofs.«403894_j12335146074240_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.EdgeMlp

/-! ### The source and destination blocks against their row blocks of the first weight matrix -/

theorem lhs_w1ab_0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide), dif_pos (show (0 : Fin S8192x128.rank) ∈ dot_S8192x128_S128x256_S8192x256_1_0_0_1_n_n.lhsNonContracting by decide)]
  rfl
theorem lhs_w1ab_1 (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q
theorem rhs_w1ab_0 (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q
theorem rhs_w1ab_1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide), dif_pos (show (1 : Fin S128x256.rank) ∈ dot_S8192x128_S128x256_S8192x256_1_0_0_1_n_n.rhsNonContracting by decide)]
  rfl

/-- The product into a zero accumulator at (r, c) is the sum over the 128 contracted entries of row r against column c. -/
theorem mm_w1ab_apply (L : FVec Ideal S8192x128 .bf16) (W : FVec Ideal S128x256 .bf16) (r : Fin 8192) (c : Fin 256) :
    matmul (F := Ideal) dot_S8192x128_S128x256_S8192x256_1_0_0_1_n_n none L W (constant (F := Ideal) S8192x256 .f32 0x00000000#32) (ix2 r c)
      = ∑ k : Fin 128, L (ix2 r k) * W (ix2 k c) := by
  show FloatOps.matmul dot_S8192x128_S128x256_S8192x256_1_0_0_1_n_n none L W (constant (F := Ideal) S8192x256 .f32 0x00000000#32) (ix2 r c) = _
  rw [Ideal.matmul_constant_zero_apply, ← Equiv.sum_comp (ValueIdx.contrEquiv1 dot_S8192x128_S128x256_S8192x256_1_0_0_1_n_n 128 rfl rfl).symm]
  refine Finset.sum_congr rfl fun k _ => ?_
  have hk := ValueIdx.contrEquiv1_symm_val dot_S8192x128_S128x256_S8192x256_1_0_0_1_n_n 128 rfl rfl k
  have el : dot_S8192x128_S128x256_S8192x256_1_0_0_1_n_n.lhsIdx (ix2 r c) ((ValueIdx.contrEquiv1 dot_S8192x128_S128x256_S8192x256_1_0_0_1_n_n 128 rfl rfl).symm k) = ix2 r k := funext fun a => Fin.ext (by
    match a with
    | ⟨0, _⟩ => exact lhs_w1ab_0 _ _
    | ⟨1, _⟩ => exact (lhs_w1ab_1 _ _).trans hk)
  have er : dot_S8192x128_S128x256_S8192x256_1_0_0_1_n_n.rhsIdx (ix2 r c) ((ValueIdx.contrEquiv1 dot_S8192x128_S128x256_S8192x256_1_0_0_1_n_n 128 rfl rfl).symm k) = ix2 k c := funext fun a => Fin.ext (by
    match a with
    | ⟨0, _⟩ => exact (rhs_w1ab_0 _ _).trans hk
    | ⟨1, _⟩ => exact rhs_w1ab_1 _ _)
  rw [el, er]

/-! ### The edge-feature block against its row block of the first weight matrix -/

theorem lhs_w1c_0 (i : S8192x256.Idx) (q : dot_S8192x32_S32x256_S8192x256_1_0_0_1_n_n.contr.Idx) :
    (dot_S8192x32_S32x256_S8192x256_1_0_0_1_n_n.lhsIdx i q 0).val = (i 0).val := by
  unfold DotDims.lhsIdx
  rw [dif_neg (show ¬(0 : Fin S8192x32.rank) ∈ dot_S8192x32_S32x256_S8192x256_1_0_0_1_n_n.lhsBatch by decide), dif_pos (show (0 : Fin S8192x32.rank) ∈ dot_S8192x32_S32x256_S8192x256_1_0_0_1_n_n.lhsNonContracting by decide)]
  rfl
theorem lhs_w1c_1 (i : S8192x256.Idx) (q : dot_S8192x32_S32x256_S8192x256_1_0_0_1_n_n.contr.Idx) :
    (dot_S8192x32_S32x256_S8192x256_1_0_0_1_n_n.lhsIdx i q 1).val = (q ⟨0, by decide⟩).val :=
  dot_S8192x32_S32x256_S8192x256_1_0_0_1_n_n.lhsIdx_val_of_single rfl i q
theorem rhs_w1c_0 (i : S8192x256.Idx) (q : dot_S8192x32_S32x256_S8192x256_1_0_0_1_n_n.contr.Idx) :
    (dot_S8192x32_S32x256_S8192x256_1_0_0_1_n_n.rhsIdx i q 0).val = (q ⟨0, by decide⟩).val :=
  dot_S8192x32_S32x256_S8192x256_1_0_0_1_n_n.rhsIdx_val_of_single rfl i q
theorem rhs_w1c_1 (i : S8192x256.Idx) (q : dot_S8192x32_S32x256_S8192x256_1_0_0_1_n_n.contr.Idx) :
    (dot_S8192x32_S32x256_S8192x256_1_0_0_1_n_n.rhsIdx i q 1).val = (i 1).val := by
  unfold DotDims.rhsIdx
  rw [dif_neg (show ¬(1 : Fin S32x256.rank) ∈ dot_S8192x32_S32x256_S8192x256_1_0_0_1_n_n.rhsBatch by decide), dif_pos (show (1 : Fin S32x256.rank) ∈ dot_S8192x32_S32x256_S8192x256_1_0_0_1_n_n.rhsNonContracting by decide)]
  rfl

/-- The product into a zero accumulator at (r, c) is the sum over the 32 contracted entries of row r against column c. -/
theorem mm_w1c_apply (L : FVec Ideal S8192x32 .bf16) (W : FVec Ideal S32x256 .bf16) (r : Fin 8192) (c : Fin 256) :
    matmul (F := Ideal) dot_S8192x32_S32x256_S8192x256_1_0_0_1_n_n none L W (constant (F := Ideal) S8192x256 .f32 0x00000000#32) (ix2 r c)
      = ∑ k : Fin 32, L (ix2 r k) * W (ix2 k c) := by
  show FloatOps.matmul dot_S8192x32_S32x256_S8192x256_1_0_0_1_n_n none L W (constant (F := Ideal) S8192x256 .f32 0x00000000#32) (ix2 r c) = _
  rw [Ideal.matmul_constant_zero_apply, ← Equiv.sum_comp (ValueIdx.contrEquiv1 dot_S8192x32_S32x256_S8192x256_1_0_0_1_n_n 32 rfl rfl).symm]
  refine Finset.sum_congr rfl fun k _ => ?_
  have hk := ValueIdx.contrEquiv1_symm_val dot_S8192x32_S32x256_S8192x256_1_0_0_1_n_n 32 rfl rfl k
  have el : dot_S8192x32_S32x256_S8192x256_1_0_0_1_n_n.lhsIdx (ix2 r c) ((ValueIdx.contrEquiv1 dot_S8192x32_S32x256_S8192x256_1_0_0_1_n_n 32 rfl rfl).symm k) = ix2 r k := funext fun a => Fin.ext (by
    match a with
    | ⟨0, _⟩ => exact lhs_w1c_0 _ _
    | ⟨1, _⟩ => exact (lhs_w1c_1 _ _).trans hk)
  have er : dot_S8192x32_S32x256_S8192x256_1_0_0_1_n_n.rhsIdx (ix2 r c) ((ValueIdx.contrEquiv1 dot_S8192x32_S32x256_S8192x256_1_0_0_1_n_n 32 rfl rfl).symm k) = ix2 k c := funext fun a => Fin.ext (by
    match a with
    | ⟨0, _⟩ => exact (rhs_w1c_0 _ _).trans hk
    | ⟨1, _⟩ => exact rhs_w1c_1 _ _)
  rw [el, er]

/-! ### The first layer's activations against the second weight matrix -/

theorem lhs_w2_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_w2_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_w2_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_w2_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The product into a zero accumulator at (r, c) is the sum over the 256 contracted entries of row r against column c. -/
theorem mm_w2_apply (L : FVec Ideal S8192x256 .bf16) (W : FVec Ideal S256x128 .bf16) (r : Fin 8192) (c : Fin 128) :
    matmul (F := Ideal) dot_S8192x256_S256x128_S8192x128_1_0_0_1_n_n none L W (constant (F := Ideal) S8192x128 .f32 0x00000000#32) (ix2 r c)
      = ∑ k : Fin 256, L (ix2 r k) * W (ix2 k c) := by
  show FloatOps.matmul dot_S8192x256_S256x128_S8192x128_1_0_0_1_n_n none L W (constant (F := Ideal) S8192x128 .f32 0x00000000#32) (ix2 r c) = _
  rw [Ideal.matmul_constant_zero_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx (ix2 r c) ((ValueIdx.contrEquiv1 dot_S8192x256_S256x128_S8192x128_1_0_0_1_n_n 256 rfl rfl).symm k) = ix2 r k := funext fun a => Fin.ext (by
    match a with
    | ⟨0, _⟩ => exact lhs_w2_0 _ _
    | ⟨1, _⟩ => exact (lhs_w2_1 _ _).trans hk)
  have er : dot_S8192x256_S256x128_S8192x128_1_0_0_1_n_n.rhsIdx (ix2 r c) ((ValueIdx.contrEquiv1 dot_S8192x256_S256x128_S8192x128_1_0_0_1_n_n 256 rfl rfl).symm k) = ix2 k c := funext fun a => Fin.ext (by
    match a with
    | ⟨0, _⟩ => exact (rhs_w2_0 _ _).trans hk
    | ⟨1, _⟩ => exact rhs_w2_1 _ _)
  rw [el, er]

/-! ### The second layer's activations against the third weight matrix -/

theorem lhs_w3_0 (i : S8192x2.Idx) (q : dot_S8192x128_S128x2_S8192x2_1_0_0_1_n_n.contr.Idx) :
    (dot_S8192x128_S128x2_S8192x2_1_0_0_1_n_n.lhsIdx i q 0).val = (i 0).val := by
  unfold DotDims.lhsIdx
  rw [dif_neg (show ¬(0 : Fin S8192x128.rank) ∈ dot_S8192x128_S128x2_S8192x2_1_0_0_1_n_n.lhsBatch by decide), dif_pos (show (0 : Fin S8192x128.rank) ∈ dot_S8192x128_S128x2_S8192x2_1_0_0_1_n_n.lhsNonContracting by decide)]
  rfl
theorem lhs_w3_1 (i : S8192x2.Idx) (q : dot_S8192x128_S128x2_S8192x2_1_0_0_1_n_n.contr.Idx) :
    (dot_S8192x128_S128x2_S8192x2_1_0_0_1_n_n.lhsIdx i q 1).val = (q ⟨0, by decide⟩).val :=
  dot_S8192x128_S128x2_S8192x2_1_0_0_1_n_n.lhsIdx_val_of_single rfl i q
theorem rhs_w3_0 (i : S8192x2.Idx) (q : dot_S8192x128_S128x2_S8192x2_1_0_0_1_n_n.contr.Idx) :
    (dot_S8192x128_S128x2_S8192x2_1_0_0_1_n_n.rhsIdx i q 0).val = (q ⟨0, by decide⟩).val :=
  dot_S8192x128_S128x2_S8192x2_1_0_0_1_n_n.rhsIdx_val_of_single rfl i q
theorem rhs_w3_1 (i : S8192x2.Idx) (q : dot_S8192x128_S128x2_S8192x2_1_0_0_1_n_n.contr.Idx) :
    (dot_S8192x128_S128x2_S8192x2_1_0_0_1_n_n.rhsIdx i q 1).val = (i 1).val := by
  unfold DotDims.rhsIdx
  rw [dif_neg (show ¬(1 : Fin S128x2.rank) ∈ dot_S8192x128_S128x2_S8192x2_1_0_0_1_n_n.rhsBatch by decide), dif_pos (show (1 : Fin S128x2.rank) ∈ dot_S8192x128_S128x2_S8192x2_1_0_0_1_n_n.rhsNonContracting by decide)]
  rfl

/-- The product into a zero accumulator at (r, c) is the sum over the 128 contracted entries of row r against column c. -/
theorem mm_w3_apply (L : FVec Ideal S8192x128 .bf16) (W : FVec Ideal S128x2 .bf16) (r : Fin 8192) (c : Fin 2) :
    matmul (F := Ideal) dot_S8192x128_S128x2_S8192x2_1_0_0_1_n_n none L W (constant (F := Ideal) S8192x2 .f32 0x00000000#32) (ix2 r c)
      = ∑ k : Fin 128, L (ix2 r k) * W (ix2 k c) := by
  show FloatOps.matmul dot_S8192x128_S128x2_S8192x2_1_0_0_1_n_n none L W (constant (F := Ideal) S8192x2 .f32 0x00000000#32) (ix2 r c) = _
  rw [Ideal.matmul_constant_zero_apply, ← Equiv.sum_comp (ValueIdx.contrEquiv1 dot_S8192x128_S128x2_S8192x2_1_0_0_1_n_n 128 rfl rfl).symm]
  refine Finset.sum_congr rfl fun k _ => ?_
  have hk := ValueIdx.contrEquiv1_symm_val dot_S8192x128_S128x2_S8192x2_1_0_0_1_n_n 128 rfl rfl k
  have el : dot_S8192x128_S128x2_S8192x2_1_0_0_1_n_n.lhsIdx (ix2 r c) ((ValueIdx.contrEquiv1 dot_S8192x128_S128x2_S8192x2_1_0_0_1_n_n 128 rfl rfl).symm k) = ix2 r k := funext fun a => Fin.ext (by
    match a with
    | ⟨0, _⟩ => exact lhs_w3_0 _ _
    | ⟨1, _⟩ => exact (lhs_w3_1 _ _).trans hk)
  have er : dot_S8192x128_S128x2_S8192x2_1_0_0_1_n_n.rhsIdx (ix2 r c) ((ValueIdx.contrEquiv1 dot_S8192x128_S128x2_S8192x2_1_0_0_1_n_n 128 rfl rfl).symm k) = ix2 k c := funext fun a => Fin.ext (by
    match a with
    | ⟨0, _⟩ => exact (rhs_w3_0 _ _).trans hk
    | ⟨1, _⟩ => exact rhs_w3_1 _ _)
  rw [el, er]

/-! ### The layout operations -/

/-- The 8192 × 2 result laid out row-major as 128 × 128: entry (p, q) of the block is entry (r, o) of the result when
    128·p + q = 2·r + o. -/
theorem cast_apply (v : FVec Ideal S8192x2 .f32) (p q : Fin 128) (r : Fin 8192) (o : Fin 2)
    (hr : r.val = 64 * p.val + q.val / 2) (ho : o.val = q.val % 2) :
    shapeCast S128x128 v shapeCasts_S8192x2_S128x128 (ix2 p q) = v (ix2 r o) := by
  refine shapeCast_apply v _ (ix2 p q) (ix2 r o) ?_
  rw [Shape.rowMajor_val_two, Shape.rowMajor_val_two]
  show r.val * 2 + o.val = p.val * 128 + q.val
  omega

/-! ### The two hidden layers at a row -/

/-- Entry (r, k3) of the second layer's activations: both rectified layers of row r of the three input blocks. -/
theorem pay2_apply (x0 x1 : Vec Ideal S8192x128 .bf16) (x2 : Vec Ideal S8192x32 .bf16)
    (x3 x4 : Vec Ideal S128x256 .bf16) (x5 : Vec Ideal S32x256 .bf16) (x6 : Vec Ideal S1x256 .f32)
    (x7 : Vec Ideal S256x128 .bf16) (x8 : Vec Ideal S1x128 .f32) (r : Fin 8192) (k3 : Fin 128) :
    k0_pay2 (F := Ideal) x0 x1 x2 x3 x4 x5 x6 x7 x8 (ix2 r k3)
      = max ((∑ k2 : Fin 256,
          max ((((∑ k : Fin 128, x0 (ix2 r k) * x3 (ix2 k k2)) + (∑ k : Fin 128, x1 (ix2 r k) * x4 (ix2 k k2)))
              + (∑ k : Fin 32, x2 (ix2 r k) * x5 (ix2 k k2))) + x6 (ix2 (0 : Fin 1) k2)) zero
            * x7 (ix2 k2 k3)) + x8 (ix2 (0 : Fin 1) k3)) zero := by
  unfold k0_pay2
  rw [truncf_apply, maximumf_apply, addf_apply, mm_w2_apply, broadcastTo_1b_ab_apply, broadcast_apply]
  simp only [shapeCast_self, truncf_apply, maximumf_apply, addf_apply, mm_w1ab_apply, mm_w1c_apply,
    broadcastTo_1b_ab_apply, broadcast_apply]
  rfl

/-! ### The stored block -/

/-- The stored block at (p, q) is the perceptron of row r = 64·p + q / 2 of the input blocks at class o = q mod 2. -/
theorem payload_apply (x0 x1 : Vec Ideal S8192x128 .bf16) (x2 : Vec Ideal S8192x32 .bf16)
    (x3 x4 : Vec Ideal S128x256 .bf16) (x5 : Vec Ideal S32x256 .bf16) (x6 : Vec Ideal S1x256 .f32)
    (x7 : Vec Ideal S256x128 .bf16) (x8 : Vec Ideal S1x128 .f32) (x9 : Vec Ideal S128x2 .bf16) (x10 : Vec Ideal S1x2 .f32)
    (p q : Fin 128) (r : Fin 8192) (o : Fin 2) (hr : r.val = 64 * p.val + q.val / 2) (ho : o.val = q.val % 2) :
    k0_pay1 (F := Ideal) (k0_pay2 (F := Ideal) x0 x1 x2 x3 x4 x5 x6 x7 x8) x9 x10 (ix2 p q)
      = mlp3 (fun k => x0 (ix2 r k)) (fun k => x1 (ix2 r k)) (fun k => x2 (ix2 r k))
          (fun k k2 => x3 (ix2 k k2)) (fun k k2 => x4 (ix2 k k2)) (fun k k2 => x5 (ix2 k k2))
          (fun k2 => x6 (ix2 (0 : Fin 1) k2)) (fun k2 k3 => x7 (ix2 k2 k3)) (fun k3 => x8 (ix2 (0 : Fin 1) k3))
          (fun k3 o' => x9 (ix2 k3 o')) (fun o' => x10 (ix2 (0 : Fin 1) o')) o := by
  unfold k0_pay1
  rw [cast_apply _ p q r o hr ho, addf_apply, mm_w3_apply, broadcastTo_1b_ab_apply]
  unfold mlp3
  simp only [shapeCast_self, pay2_apply]

end Cert.KernelIdeal.Body

end
-- ==== Proof.Blocks.lean ====
/-
  From blocks to the array. Grid point t writes rows 128·t … 128·t + 127 of the kernel's [7936, 128] output array, and
  what it writes at (p, q) of that block is the perceptron of local edge 64·p + q / 2 of the point's input blocks at class
  q mod 2. The input blocks of point t are rows 8192·t … 8192·t + 8191 of the gathered source rows, the gathered
  destination rows and the edge features, and the weight and bias arrays whole. So entry (P, q) of the whole output array is
  the perceptron of edge 64·P + q / 2 at class q mod 2 (`outArr`): with P = 128·t + p, 64·P = 8192·t + 64·p. The 62 blocks
  tile the array, so after the run the array is `outArr` everywhere.
-/
import proofs.«403894_j12335146074240_3_alg».proof.Proof.Gen.KernelIdeal.Frame
import proofs.«403894_j12335146074240_3_alg».proof.Proof.Spec
import proofs.«403894_j12335146074240_3_alg».proof.Proof.Payload
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeMlp

/-- The edge whose result sits at (P, q) of the [7936, 128] output array, and its class. -/
def edgeAt (j : S7936x128.Idx) : Fin 507904 := ⟨64 * (j 0).val + (j 1).val / 2, by
  have h0 : (j 0).val < 7936 := (j 0).isLt
  have h1 : (j 1).val < 128 := (j 1).isLt
  omega⟩
def classAt (j : S7936x128.Idx) : Fin 2 := ⟨(j 1).val % 2, by omega⟩

/-- The output array as ONE function of the eleven arrays the region finds. -/
def outArrOf (A0 A1 : S507904x128.Idx → EReal) (A2 : S507904x32.Idx → EReal) (A3 A4 : S128x256.Idx → EReal)
    (A5 : S32x256.Idx → EReal) (A6 : S1x256.Idx → EReal) (A7 : S256x128.Idx → EReal) (A8 : S1x128.Idx → EReal)
    (A9 : S128x2.Idx → EReal) (A10 : S1x2.Idx → EReal) : S7936x128.Idx → EReal := fun j =>
  mlp3 (fun k => A0 (ix2 (edgeAt j) k)) (fun k => A1 (ix2 (edgeAt j) k)) (fun k => A2 (ix2 (edgeAt j) k))
    (fun k k2 => A3 (ix2 k k2)) (fun k k2 => A4 (ix2 k k2)) (fun k k2 => A5 (ix2 k k2))
    (fun k2 => A6 (ix2 (0 : Fin 1) k2)) (fun k2 k3 => A7 (ix2 k2 k3)) (fun k3 => A8 (ix2 (0 : Fin 1) k3))
    (fun k3 o' => A9 (ix2 k3 o')) (fun o' => A10 (ix2 (0 : Fin 1) o')) (classAt j)

/-- One block: if the input blocks are rows 8192·T … of the three long arrays and the short arrays whole, the stored
    block at y is the output function at the array index i = (128·T + y₀, y₁). -/
theorem block_eq (x0 x1 : Vec Ideal S8192x128 .bf16) (x2 : Vec Ideal S8192x32 .bf16)
    (x3 x4 : Vec Ideal S128x256 .bf16) (x5 : Vec Ideal S32x256 .bf16) (x6 : Vec Ideal S1x256 .f32)
    (x7 : Vec Ideal S256x128 .bf16) (x8 : Vec Ideal S1x128 .f32) (x9 : Vec Ideal S128x2 .bf16) (x10 : Vec Ideal S1x2 .f32)
    (A0 A1 : S507904x128.Idx → EReal) (A2 : S507904x32.Idx → EReal) (A3 A4 : S128x256.Idx → EReal)
    (A5 : S32x256.Idx → EReal) (A6 : S1x256.Idx → EReal) (A7 : S256x128.Idx → EReal) (A8 : S1x128.Idx → EReal)
    (A9 : S128x2.Idx → EReal) (A10 : S1x2.Idx → EReal) (T : Nat) (hT : T < 62)
    (h0 : ∀ (r : Fin 8192) (k : Fin 128), x0 (ix2 r k) = A0 (ix2 (⟨8192 * T + r.val, by omega⟩ : Fin 507904) k))
    (h1 : ∀ (r : Fin 8192) (k : Fin 128), x1 (ix2 r k) = A1 (ix2 (⟨8192 * T + r.val, by omega⟩ : Fin 507904) k))
    (h2 : ∀ (r : Fin 8192) (k : Fin 32), x2 (ix2 r k) = A2 (ix2 (⟨8192 * T + r.val, by omega⟩ : Fin 507904) k))
    (h3 : ∀ k k2, x3 (ix2 k k2) = A3 (ix2 k k2)) (h4 : ∀ k k2, x4 (ix2 k k2) = A4 (ix2 k k2))
    (h5 : ∀ k k2, x5 (ix2 k k2) = A5 (ix2 k k2)) (h6 : ∀ k2, x6 (ix2 (0 : Fin 1) k2) = A6 (ix2 (0 : Fin 1) k2))
    (h7 : ∀ k2 k3, x7 (ix2 k2 k3) = A7 (ix2 k2 k3)) (h8 : ∀ k3, x8 (ix2 (0 : Fin 1) k3) = A8 (ix2 (0 : Fin 1) k3))
    (h9 : ∀ k3 o', x9 (ix2 k3 o') = A9 (ix2 k3 o')) (h10 : ∀ o', x10 (ix2 (0 : Fin 1) o') = A10 (ix2 (0 : Fin 1) o'))
    (y : S128x128.Idx) (i : S7936x128.Idx) (hi0 : (i 0).val = 128 * T + (y 0).val) (hi1 : (i 1).val = (y 1).val) :
    k0_pay1 (F := Ideal) (k0_pay2 (F := Ideal) x0 x1 x2 x3 x4 x5 x6 x7 x8) x9 x10 y
      = outArrOf A0 A1 A2 A3 A4 A5 A6 A7 A8 A9 A10 i := by
  obtain ⟨p, q, rfl⟩ : ∃ (p : Fin 128) (q : Fin 128), y = ix2 p q := ⟨y 0, y 1, eq_ix2 y⟩
  have hi0' : (i 0).val = 128 * T + p.val := hi0
  have hi1' : (i 1).val = q.val := hi1
  have hp : p.val < 128 := p.isLt
  have hq : q.val < 128 := q.isLt
  have hr : 64 * p.val + q.val / 2 < 8192 := by omega
  rw [Cert.KernelIdeal.Body.payload_apply x0 x1 x2 x3 x4 x5 x6 x7 x8 x9 x10 p q
    ⟨64 * p.val + q.val / 2, hr⟩ ⟨q.val % 2, by omega⟩ rfl rfl]
  have er : edgeAt i = (⟨8192 * T + (64 * p.val + q.val / 2), by omega⟩ : Fin 507904) :=
    Fin.ext (by show 64 * (i 0).val + (i 1).val / 2 = 8192 * T + (64 * p.val + q.val / 2); rw [hi0', hi1']; omega)
  have eo : classAt i = (⟨q.val % 2, by omega⟩ : Fin 2) := Fin.ext (by show (i 1).val % 2 = q.val % 2; rw [hi1'])
  unfold outArrOf
  rw [er, eo]
  simp only [h0, h1, h2, h3, h4, h5, h6, h7, h8, h9, h10]

variable (m : (ℓ : Loc nD τ sig) → Buf (Elt Ideal) ℓ)

/-- The output array as a function of what the region finds in its eleven input arrays on core c. -/
def outArr (c : Dev nD) : S7936x128.Idx → EReal :=
  outArrOf (V m c main_v6) (V m c main_v9) (V m c main_v3) (V m c main_v11) (V m c main_v13) (V m c main_v15)
    (V m c main_v18) (V m c main_v16) (V m c main_v19) (V m c main_v17) (V m c main_v20)

theorem origin : (![0, 0] : Fin 2 → Nat) = fun _ => 0 := funext fun a => by fin_cases a <;> rfl

/-- The printed index maps over the grid: the three long inputs and the output move with the grid point on axis 0, the
    short inputs stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Input window 0's block at point t is rows 8192·t … of its array. -/
theorem block0_read (c : Dev nD) (t : Fin cfg0.N) (ht : t.val < 62) (r : Fin 8192) (k : Fin 128) :
    iblk m c 0 t (ix2 r k) = V m c main_v6 (ix2 (⟨8192 * t.val + r.val, by omega⟩ : Fin 507904) k) := by
  obtain ⟨a00, a01, a10, a11, a20, a21, -⟩ := index_maps t
  show V m c main_v6 (((cfg0.win 0).blk t).view.emb (ix2 r k)) = _
  refine congrArg (V m c main_v6) ?_
  funext a; apply Fin.ext
  match a with
  | ⟨0, _⟩ => show win0_0.index t (0 : Fin 2) * 8192 + 1 * r.val = 8192 * t.val + r.val; omega
  | ⟨1, _⟩ => show win0_0.index t (1 : Fin 2) * 128 + 1 * k.val = k.val; omega

/-- Input window 1's block at point t is rows 8192·t … of its array. -/
theorem block1_read (c : Dev nD) (t : Fin cfg0.N) (ht : t.val < 62) (r : Fin 8192) (k : Fin 128) :
    iblk m c 1 t (ix2 r k) = V m c main_v9 (ix2 (⟨8192 * t.val + r.val, by omega⟩ : Fin 507904) k) := by
  obtain ⟨a00, a01, a10, a11, a20, a21, -⟩ := index_maps t
  show V m c main_v9 (((cfg0.win 1).blk t).view.emb (ix2 r k)) = _
  refine congrArg (V m c main_v9) ?_
  funext a; apply Fin.ext
  match a with
  | ⟨0, _⟩ => show win0_1.index t (0 : Fin 2) * 8192 + 1 * r.val = 8192 * t.val + r.val; omega
  | ⟨1, _⟩ => show win0_1.index t (1 : Fin 2) * 128 + 1 * k.val = k.val; omega

/-- Input window 2's block at point t is rows 8192·t … of its array. -/
theorem block2_read (c : Dev nD) (t : Fin cfg0.N) (ht : t.val < 62) (r : Fin 8192) (k : Fin 32) :
    iblk m c 2 t (ix2 r k) = V m c main_v3 (ix2 (⟨8192 * t.val + r.val, by omega⟩ : Fin 507904) k) := by
  obtain ⟨a00, a01, a10, a11, a20, a21, -⟩ := index_maps t
  show V m c main_v3 (((cfg0.win 2).blk t).view.emb (ix2 r k)) = _
  refine congrArg (V m c main_v3) ?_
  funext a; apply Fin.ext
  match a with
  | ⟨0, _⟩ => show win0_2.index t (0 : Fin 2) * 8192 + 1 * r.val = 8192 * t.val + r.val; omega
  | ⟨1, _⟩ => show win0_2.index t (1 : Fin 2) * 32 + 1 * k.val = k.val; omega

/-- Input window 3's block at every point is its whole array. -/
theorem block3_read (c : Dev nD) (t : Fin cfg0.N) (r : Fin 128) (k : Fin 256) :
    iblk m c 3 t (ix2 r k) = V m c main_v11 (ix2 r k) := by
  obtain ⟨a00, a01, a10, a11, a20, a21, a30, a31, a40, a41, a50, a51, a60, a61, a70, a71, a80, a81, a90, a91, aA0, aA1, -⟩ := index_maps t
  show V m c main_v11 (((cfg0.win 3).blk t).view.emb (ix2 r k)) = _
  refine congrArg (V m c main_v11) ?_
  funext a; apply Fin.ext
  match a with
  | ⟨0, _⟩ => show win0_3.index t (0 : Fin 2) * 128 + 1 * r.val = r.val; omega
  | ⟨1, _⟩ => show win0_3.index t (1 : Fin 2) * 256 + 1 * k.val = k.val; omega

/-- Input window 4's block at every point is its whole array. -/
theorem block4_read (c : Dev nD) (t : Fin cfg0.N) (r : Fin 128) (k : Fin 256) :
    iblk m c 4 t (ix2 r k) = V m c main_v13 (ix2 r k) := by
  obtain ⟨a00, a01, a10, a11, a20, a21, a30, a31, a40, a41, a50, a51, a60, a61, a70, a71, a80, a81, a90, a91, aA0, aA1, -⟩ := index_maps t
  show V m c main_v13 (((cfg0.win 4).blk t).view.emb (ix2 r k)) = _
  refine congrArg (V m c main_v13) ?_
  funext a; apply Fin.ext
  match a with
  | ⟨0, _⟩ => show win0_4.index t (0 : Fin 2) * 128 + 1 * r.val = r.val; omega
  | ⟨1, _⟩ => show win0_4.index t (1 : Fin 2) * 256 + 1 * k.val = k.val; omega

/-- Input window 5's block at every point is its whole array. -/
theorem block5_read (c : Dev nD) (t : Fin cfg0.N) (r : Fin 32) (k : Fin 256) :
    iblk m c 5 t (ix2 r k) = V m c main_v15 (ix2 r k) := by
  obtain ⟨a00, a01, a10, a11, a20, a21, a30, a31, a40, a41, a50, a51, a60, a61, a70, a71, a80, a81, a90, a91, aA0, aA1, -⟩ := index_maps t
  show V m c main_v15 (((cfg0.win 5).blk t).view.emb (ix2 r k)) = _
  refine congrArg (V m c main_v15) ?_
  funext a; apply Fin.ext
  match a with
  | ⟨0, _⟩ => show win0_5.index t (0 : Fin 2) * 32 + 1 * r.val = r.val; omega
  | ⟨1, _⟩ => show win0_5.index t (1 : Fin 2) * 256 + 1 * k.val = k.val; omega

/-- Input window 6's block at every point is its whole one-row array. -/
theorem block6_read (c : Dev nD) (t : Fin cfg0.N) (k : Fin 256) :
    iblk m c 6 t (ix2 (0 : Fin 1) k) = V m c main_v18 (ix2 (0 : Fin 1) k) := by
  obtain ⟨a00, a01, a10, a11, a20, a21, a30, a31, a40, a41, a50, a51, a60, a61, a70, a71, a80, a81, a90, a91, aA0, aA1, -⟩ := index_maps t
  show V m c main_v18 (((cfg0.win 6).blk t).view.emb (ix2 (0 : Fin 1) k)) = _
  refine congrArg (V m c main_v18) ?_
  funext a; apply Fin.ext
  match a with
  | ⟨0, _⟩ => show win0_6.index t (0 : Fin 2) * 1 + 1 * 0 = 0; omega
  | ⟨1, _⟩ => show win0_6.index t (1 : Fin 2) * 256 + 1 * k.val = k.val; omega

/-- Input window 7's block at every point is its whole array. -/
theorem block7_read (c : Dev nD) (t : Fin cfg0.N) (r : Fin 256) (k : Fin 128) :
    iblk m c 7 t (ix2 r k) = V m c main_v16 (ix2 r k) := by
  obtain ⟨a00, a01, a10, a11, a20, a21, a30, a31, a40, a41, a50, a51, a60, a61, a70, a71, a80, a81, a90, a91, aA0, aA1, -⟩ := index_maps t
  show V m c main_v16 (((cfg0.win 7).blk t).view.emb (ix2 r k)) = _
  refine congrArg (V m c main_v16) ?_
  funext a; apply Fin.ext
  match a with
  | ⟨0, _⟩ => show win0_7.index t (0 : Fin 2) * 256 + 1 * r.val = r.val; omega
  | ⟨1, _⟩ => show win0_7.index t (1 : Fin 2) * 128 + 1 * k.val = k.val; omega

/-- Input window 8's block at every point is its whole one-row array. -/
theorem block8_read (c : Dev nD) (t : Fin cfg0.N) (k : Fin 128) :
    iblk m c 8 t (ix2 (0 : Fin 1) k) = V m c main_v19 (ix2 (0 : Fin 1) k) := by
  obtain ⟨a00, a01, a10, a11, a20, a21, a30, a31, a40, a41, a50, a51, a60, a61, a70, a71, a80, a81, a90, a91, aA0, aA1, -⟩ := index_maps t
  show V m c main_v19 (((cfg0.win 8).blk t).view.emb (ix2 (0 : Fin 1) k)) = _
  refine congrArg (V m c main_v19) ?_
  funext a; apply Fin.ext
  match a with
  | ⟨0, _⟩ => show win0_8.index t (0 : Fin 2) * 1 + 1 * 0 = 0; omega
  | ⟨1, _⟩ => show win0_8.index t (1 : Fin 2) * 128 + 1 * k.val = k.val; omega

/-- Input window 9's block at every point is its whole array. -/
theorem block9_read (c : Dev nD) (t : Fin cfg0.N) (r : Fin 128) (k : Fin 2) :
    iblk m c 9 t (ix2 r k) = V m c main_v17 (ix2 r k) := by
  obtain ⟨a00, a01, a10, a11, a20, a21, a30, a31, a40, a41, a50, a51, a60, a61, a70, a71, a80, a81, a90, a91, aA0, aA1, -⟩ := index_maps t
  show V m c main_v17 (((cfg0.win 9).blk t).view.emb (ix2 r k)) = _
  refine congrArg (V m c main_v17) ?_
  funext a; apply Fin.ext
  match a with
  | ⟨0, _⟩ => show win0_9.index t (0 : Fin 2) * 128 + 1 * r.val = r.val; omega
  | ⟨1, _⟩ => show win0_9.index t (1 : Fin 2) * 2 + 1 * k.val = k.val; omega

/-- Input window 10's block at every point is its whole one-row array. -/
theorem block10_read (c : Dev nD) (t : Fin cfg0.N) (k : Fin 2) :
    iblk m c 10 t (ix2 (0 : Fin 1) k) = V m c main_v20 (ix2 (0 : Fin 1) k) := by
  obtain ⟨a00, a01, a10, a11, a20, a21, a30, a31, a40, a41, a50, a51, a60, a61, a70, a71, a80, a81, a90, a91, aA0, aA1, -⟩ := index_maps t
  show V m c main_v20 (((cfg0.win 10).blk t).view.emb (ix2 (0 : Fin 1) k)) = _
  refine congrArg (V m c main_v20) ?_
  funext a; apply Fin.ext
  match a with
  | ⟨0, _⟩ => show win0_10.index t (0 : Fin 2) * 1 + 1 * 0 = 0; omega
  | ⟨1, _⟩ => show win0_10.index t (1 : Fin 2) * 2 + 1 * k.val = k.val; omega

/-- Where the output window's block at point t sits in its array: rows 128·t …, all 128 columns. -/
theorem out_block_row (t : Fin cfg0.N) (y : S128x128.Idx) :
    ((((cfg0.win 11).blk t).view.emb y) 0).val = 128 * t.val + (y 0).val := by
  obtain ⟨a00, a01, a10, a11, a20, a21, a30, a31, a40, a41, a50, a51, a60, a61, a70, a71, a80, a81, a90, a91, aA0, aA1, aB0, aB1⟩ := index_maps t
  show win0_11.index t (0 : Fin 2) * 128 + 1 * (y 0).val = 128 * t.val + (y 0).val; omega
theorem out_block_col (t : Fin cfg0.N) (y : S128x128.Idx) :
    ((((cfg0.win 11).blk t).view.emb y) 1).val = (y 1).val := by
  obtain ⟨a00, a01, a10, a11, a20, a21, a30, a31, a40, a41, a50, a51, a60, a61, a70, a71, a80, a81, a90, a91, aA0, aA1, aB0, aB1⟩ := index_maps t
  show win0_11.index t (1 : Fin 2) * 128 + 1 * (y 1).val = (y 1).val; omega

/-- WHAT POINT t WRITES BACK is block t of `outArr`. -/
theorem flushed_eq (c : Dev nD) (t : Fin cfg0.N) :
    (dats m 0 c).flushed 11 t = ((cfg0.win 11).blk t).view.read (Elt Ideal) (outArr m c) := by
  show (cfg0.win 11).cut (grid0.coords t) ((dats m 0 c).after 11 t) = _
  rw [after0_11]
  unfold out0_11
  rw [View.canon_unit_zero origin]
  simp only [View.ld_unit_zero (S := S8192x128) origin, View.ld_unit_zero (S := S8192x32) origin,
    View.ld_unit_zero (S := S128x256) origin, View.ld_unit_zero (S := S32x256) origin,
    View.ld_unit_zero (S := S1x256) origin, View.ld_unit_zero (S := S256x128) origin,
    View.ld_unit_zero (S := S1x128) origin, View.ld_unit_zero (S := S128x2) origin,
    View.ld_unit_zero (S := S1x2) origin]
  have ht : t.val < 62 := t.isLt
  funext y
  unfold outArr
  exact block_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (V m c main_v6) (V m c main_v9) (V m c main_v3)
    (V m c main_v11) (V m c main_v13) (V m c main_v15) (V m c main_v18) (V m c main_v16) (V m c main_v19) (V m c main_v17)
    (V m c main_v20) t.val ht (block0_read m c t ht) (block1_read m c t ht) (block2_read m c t ht) (block3_read m c t)
    (block4_read m c t) (block5_read m c t) (block6_read m c t) (block7_read m c t) (block8_read m c t) (block9_read m c t)
    (block10_read m c t) y (((cfg0.win 11).blk t).view.emb y) (out_block_row t y) (out_block_col t y)

/-- An index of the output array is in point t's block iff its row is one of the block's 128 rows. -/
theorem mem_block (t : Fin cfg0.N) (i : S7936x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v21).slice (win0_11.rect t)).set ↔ _
  rw [View.set_slice_whole, Rect.mem_set_unit]
  exact Iff.rfl

/-- The 62 blocks tile the array: row P lies in the block of point P / 128. -/
theorem cover (i : S7936x128.Idx) :
    ∃ t : Fin cfg0.N, (cfg0.win 11).flush t = true ∧ i ∈ ((cfg0.win 11).blk t).view.set := by
  have hi0 : (i 0).val < 7936 := (i 0).isLt
  have hi1 : (i 1).val < 128 := (i 1).isLt
  let t : Fin cfg0.N := ⟨(i 0).val / 128, by show (i 0).val / 128 < 62; omega⟩
  obtain ⟨a00, a01, a10, a11, a20, a21, a30, a31, a40, a41, a50, a51, a60, a61, a70, a71, a80, a81, a90, a91, aA0, aA1, aB0, aB1⟩ := index_maps t
  have ht : t.val = (i 0).val / 128 := rfl
  refine ⟨t, flush0_11 t, ?_⟩
  rw [mem_block]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 128 ≤ (i 1).val ∧ (i 1).val < win0_11.index t (1 : Fin 2) * 128 + 128; omega

/-- THE ARRAY after the run is `outArr`. -/
theorem final (c : Dev nD) : (dats m 0 c).arrAt 11 cfg0.N = outArr m c :=
  (dats m 0 c).arrAt_eq_of_cover 11 (outArr m c) (fun t _ => flushed_eq m c t) cover

end Cert.KernelIdeal.Blocks

end
-- ==== Proof.LibRowGather.lean ====
/-
  A general fact about `stablehlo.gather` in the shape jnp's `table[ids]` / `jnp.take(table, ids, axis=0)` prints for a
  rank-2 table: the start indices are an [n × 1] column, operand axis 0 is collapsed and start-indexed, axis 1 is the one
  offset axis with the whole row as the slice, nothing is batched and the index vector sits on axis 1. Result entry
  (p, q) is then the table's entry (row, q), where `row` is start index `p` read as a SIGNED integer and clamped into
  0 … N − 1: a negative id reads row 0, one past the end reads the last row.
-/
import Idealize.ShloMosaic.PureOps.ShapeOps
import Idealize.ShloMosaic.Lib.ValueIdx

namespace Cert.LibRowGather

open Idealize.ShloMosaic Idealize.ShloMosaic.ValueIdx

/-- The entry of a one-element list, whatever the position's proof. -/
private theorem getElem_of_eq_singleton {α : Type} {l : List α} {x : α} (h : l = [x]) (i : Nat) (hi : i < l.length) :
    l[i] = x := by
  subst h
  have h0 : i = 0 := by simpa using hi
  subst h0
  rfl

/-- A coordinate read at two equal axes. -/
private theorem val_congr_axis {t : Shape} (j : t.Idx) {a b : Fin t.rank} (h : a = b) : (j a).val = (j b).val := by
  subst h; rfl

section
variable {N n C w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

/-- The result's one batch axis is axis 0. -/
private theorem batchDims_eq : d.batchDims = [0] := by
  show (⟨2, ![n, C]⟩ : Shape).kept d.offsetDims = [0]
  rw [hoff]; rfl

/-- The operand's one kept axis is axis 1. -/
private theorem sKept_eq : d.sKept = [1] := by
  show (⟨2, ![N, C]⟩ : Shape).kept (d.collapsedSliceDims ++ d.operandBatchingDims) = [1]
  rw [hcoll, hob]; rfl

/-- The start-index vector that result entry (p, q) reads: component 0 of row p of the column. -/
private theorem siIdx_eq (p : Fin n) (q : Fin C) (c : Fin d.startIndexMap.length) :
    d.siIdx (ix2 p q) c = ix2 p (0 : Fin 1) := by
  have hc : c.val = 0 := by
    have hlt : c.val < d.startIndexMap.length := c.isLt
    have hl : d.startIndexMap.length = 1 := by rw [hsim]; rfl
    omega
  have h0 : ((d.siIdx (ix2 p q) c) 0).val = p.val := by
    unfold GatherDims.siIdx
    rw [dif_neg (by rw [hivd]; exact Nat.zero_ne_one)]
    unfold GatherDims.siCoord
    simp only [Fin.val_cast]
    exact val_congr_axis (ix2 p q) (getElem_of_eq_singleton (batchDims_eq d hoff hcoll hob hsim hivd) _ _)
  have h1 : ((d.siIdx (ix2 p q) c) 1).val = 0 := by
    unfold GatherDims.siIdx
    rw [dif_pos (by rw [hivd]; rfl)]
    exact hc
  funext b
  apply Fin.ext
  match b with
  | ⟨0, _⟩ => exact h0
  | ⟨1, _⟩ => exact h1

/-- On the table's row axis the operand index is the clamped start index. -/
private theorem operand_axis0 (idx : IVec ⟨2, ![n, 1]⟩ w) (p : Fin n) (q : Fin C) :
    ((d.operandIdx (ix2 p q) idx) 0).val = min (idx (ix2 p (0 : Fin 1))).toInt.toNat (N - 1) := by
  have hb : (0 : Fin 2) ∉ d.operandBatchingDims := by rw [hob]; exact List.not_mem_nil
  have hk : (0 : Fin 2) ∉ d.sKept := by
    rw [sKept_eq d hoff hcoll hob hsim hivd]
    intro h
    exact Nat.zero_ne_one (congrArg Fin.val (List.mem_singleton.mp h))
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_eq d hoff hcoll hob hsim hivd p q _]
  show min (idx (ix2 p (0 : Fin 1))).toInt.toNat (N - d.sliceSizes 0) = _
  rw [hsl]

/-- On the table's column axis it is the result's column. -/
private theorem operand_axis1 (idx : IVec ⟨2, ![n, 1]⟩ w) (p : Fin n) (q : Fin C) :
    ((d.operandIdx (ix2 p q) idx) 1).val = q.val := by
  have hb : (1 : Fin 2) ∉ d.operandBatchingDims := by rw [hob]; exact List.not_mem_nil
  have hk : (1 : Fin 2) ∈ d.sKept := by rw [sKept_eq d hoff hcoll hob hsim hivd]; exact List.mem_singleton.mpr rfl
  have hm : (1 : Fin 2) ∉ d.startIndexMap := by
    rw [hsim]
    intro h
    exact Nat.one_ne_zero (congrArg Fin.val (List.mem_singleton.mp h))
  simp only [GatherDims.operandIdx, GatherDims.batchCoord_eq_zero _ _ _ hb, Nat.add_zero, GatherDims.start, dif_neg hm,
    Nat.zero_add, GatherDims.offCoord, dif_pos hk]
  exact val_congr_axis (ix2 p q) (getElem_of_eq_singleton hoff _ _)

end

/-- Rows of an [N × C] table taken by an [n × 1] column of start indices: entry (p, q) of the result is the table's
    entry (clamp (start index p), q). The hypotheses are the printed dimension numbers, each closed by `rfl`. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  apply Fin.ext
  match a with
  | ⟨0, _⟩ => exact operand_axis0 d hoff hcoll hob hsim hivd idx p q
  | ⟨1, _⟩ => exact operand_axis1 d hoff hcoll hob hsim hivd idx p q

end Cert.LibRowGather
-- ==== Proof.Windows.lean ====
/-
  What the kernel's eleven input windows hold when the region is entered, read at an index, in terms of the argument
  arrays: the host lines before the region only re-lay, cast (the identity on extended reals), pad and gather them.
  - the source and destination rows: row E of the gathered table is row `rowOf id` of the embedding table, `id` the
    node id of edge E (for the real edges, E < 500000; the 7904 padding rows are not needed);
  - the edge features: unchanged on the real edges;
  - the three row blocks of the first weight matrix, the other two weight matrices, and the biases as 1 × n rows.
-/
import proofs.«403894_j12335146074240_3_alg».proof.Proof.Gen.KernelIdeal.Frame
import proofs.«403894_j12335146074240_3_alg».proof.Proof.Spec
import proofs.«403894_j12335146074240_3_alg».proof.Proof.LibRowGather
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

noncomputable section

namespace Cert.KernelIdeal.Entry

open Idealize.ShloMosaic Idealize.ShloMosaic.TcCoe Idealize.ShloMosaic.ValueIdx Idealize.SL.Sem
open Cert.KernelIdeal Cert.KernelIdeal.Gen Cert.EdgeMlp

variable (m : (ℓ : Loc nD τ sig) → Buf (Elt Ideal) ℓ)

/-- The nine argument arrays on core `c`, at their literal types. -/
abbrev aEmb (c : Dev nD) : S100000x128.Idx → EReal := m ((c : Thread nD τ).loc main_arg0)
abbrev aIdx (c : Dev nD) : S2x500000.Idx → BitVec 32 := m ((c : Thread nD τ).loc main_arg1)
abbrev aEf (c : Dev nD) : S500000x32.Idx → EReal := m ((c : Thread nD τ).loc main_arg2)
abbrev aW1 (c : Dev nD) : S288x256.Idx → EReal := m ((c : Thread nD τ).loc main_arg3)
abbrev aB1 (c : Dev nD) : S256.Idx → EReal := m ((c : Thread nD τ).loc main_arg4)
abbrev aW2 (c : Dev nD) : S256x128.Idx → EReal := m ((c : Thread nD τ).loc main_arg5)
abbrev aB2 (c : Dev nD) : S128.Idx → EReal := m ((c : Thread nD τ).loc main_arg6)
abbrev aW3 (c : Dev nD) : S128x2.Idx → EReal := m ((c : Thread nD τ).loc main_arg7)
abbrev aB3 (c : Dev nD) : S2.Idx → EReal := m ((c : Thread nD τ).loc main_arg8)

/-- The eleven windows' arrays as the region finds them, at their literal types. -/
abbrev wSrc (c : Dev nD) : S507904x128.Idx → EReal := V m c main_v6
abbrev wDst (c : Dev nD) : S507904x128.Idx → EReal := V m c main_v9
abbrev wEf (c : Dev nD) : S507904x32.Idx → EReal := V m c main_v3
abbrev wW1a (c : Dev nD) : S128x256.Idx → EReal := V m c main_v11
abbrev wW1b (c : Dev nD) : S128x256.Idx → EReal := V m c main_v13
abbrev wW1c (c : Dev nD) : S32x256.Idx → EReal := V m c main_v15
abbrev wB1 (c : Dev nD) : S1x256.Idx → EReal := V m c main_v18
abbrev wW2 (c : Dev nD) : S256x128.Idx → EReal := V m c main_v16
abbrev wB2 (c : Dev nD) : S1x128.Idx → EReal := V m c main_v19
abbrev wW3 (c : Dev nD) : S128x2.Idx → EReal := V m c main_v17
abbrev wB3 (c : Dev nD) : S1x2.Idx → EReal := V m c main_v20

/-- The host lines before the region, run on the launch contents: each window's array is then a closed term of the
    argument arrays. -/
macro "entry_term" : tactic =>
  `(tactic| (dsimp only [wSrc, wDst, wEf, wW1a, wW1b, wW1c, wB1, wW2, wB2, wW3, wB3, Gen.V, Gen.V0]
             simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
             after_results
             rfl))

/-! ## The arrays as terms of the arguments -/

theorem term_w2 (c : Dev nD) : wW2 m c = aW2 m c := by entry_term

theorem term_w3 (c : Dev nD) : wW3 m c = aW3 m c := by entry_term

theorem term_b1 (c : Dev nD) : wB1 m c = shapeCast S1x256 (aB1 m c) shapeCasts_S256_S1x256 := by entry_term

theorem term_b2 (c : Dev nD) : wB2 m c = shapeCast S1x128 (aB2 m c) shapeCasts_S128_S1x128 := by entry_term

theorem term_b3 (c : Dev nD) : wB3 m c = shapeCast S1x2 (aB3 m c) shapeCasts_S2_S1x2 := by entry_term

theorem term_w1a (c : Dev nD) :
    wW1a m c = extractStridedSlice S128x256 ![0, 0] (aW1 m c) slices_S288x256_S128x256_0_0 := by entry_term

theorem term_w1b (c : Dev nD) :
    wW1b m c = extractStridedSlice S128x256 ![128, 0] (aW1 m c) slices_S288x256_S128x256_128_0 := by entry_term

theorem term_w1c (c : Dev nD) :
    wW1c m c = extractStridedSlice S32x256 ![256, 0] (aW1 m c) slices_S288x256_S32x256_256_0 := by entry_term

/-- The edge features padded with 7904 rows of zeros. -/
theorem term_ef (c : Dev nD) :
    wEf m c = pad S507904x32 ![0, 0] ![7904, 0] ![0, 0] (aEf m c) (constant (F := Ideal) S_ .f32 0x00000000#32)
      pads_S500000x32_S507904x32_079040_000 h_S_ := by entry_term

/-- Row 0 of the node ids (the source ids), padded with 7904 zeros, as a [507904 × 1] column. -/
abbrev idCol0 (c : Dev nD) : IVec S507904x1 32 :=
  broadcastInDim S507904x1 ![0] bcast_S507904_S507904x1_0
    (shapeCast S507904
      (extractStridedSlice S1x507904 ![0, 0]
        (pad S2x507904 ![0, 0] ![0, 7904] ![0, 0] (aIdx m c) (constantI S_ 32 0#32) pads_S2x500000_S2x507904_000_079040 h_S_)
        slices_S2x507904_S1x507904_0_0)
      shapeCasts_S1x507904_S507904)

/-- Row 1 of the node ids (the destination ids), likewise. -/
abbrev idCol1 (c : Dev nD) : IVec S507904x1 32 :=
  broadcastInDim S507904x1 ![0] bcast_S507904_S507904x1_0
    (shapeCast S507904
      (extractStridedSlice S1x507904 ![1, 0]
        (pad S2x507904 ![0, 0] ![0, 7904] ![0, 0] (aIdx m c) (constantI S_ 32 0#32) pads_S2x500000_S2x507904_000_079040 h_S_)
        slices_S2x507904_S1x507904_1_0)
      shapeCasts_S1x507904_S507904)

theorem term_src (c : Dev nD) :
    wSrc m c = Host.gather gather_S100000x128_S507904x1_S507904x128_1_0_n_n_0_1_1128 (aEmb m c) (idCol0 m c) := by
  entry_term

theorem term_dst (c : Dev nD) :
    wDst m c = Host.gather gather_S100000x128_S507904x1_S507904x128_1_0_n_n_0_1_1128 (aEmb m c) (idCol1 m c) := by
  entry_term

/-! ## The terms read at an index -/

/-- The id column of row `r`: at a real edge `E` the padding, the cut of row `r`, the flattening and the re-laying as a
    column all read the argument's entry (r, E). -/
theorem idCol_apply (x : S2x500000.Idx → BitVec 32) (z : S_.Idx → BitVec 32) (o : Nat) (r : Fin 2) (hr : r.val = o)
    (hs : S2x507904.Slices ![o, 0] S1x507904) (E : Fin 507904) (hE : E.val < 500000) :
    broadcastInDim S507904x1 ![0] bcast_S507904_S507904x1_0
        (shapeCast S507904
          (extractStridedSlice S1x507904 ![o, 0]
            (pad S2x507904 ![0, 0] ![0, 7904] ![0, 0] x z pads_S2x500000_S2x507904_000_079040 h_S_) hs)
          shapeCasts_S1x507904_S507904) (ix2 E (0 : Fin 1))
      = x (ix2 r (⟨E.val, hE⟩ : Fin 500000)) := by
  refine (broadcastInDim_apply _ bcast_S507904_S507904x1_0 _ (ix2 E (0 : Fin 1)) (ix1 E) (fun a => match a with
    | ⟨0, _⟩ => by show E.val = if (507904 : Nat) = 1 then 0 else E.val; rw [if_neg (by decide)])).trans ?_
  refine (shapeCast_1a_a_apply _ shapeCasts_S1x507904_S507904 E).trans ?_
  refine (slice2_axis0_apply o _ hs (0 : Fin 1) E r (by show r.val = o + 0; omega)).trans ?_
  exact pad_apply_of_inside _ _ _ x z pads_S2x500000_S2x507904_000_079040 h_S_ (ix2 r E) (ix2 r (⟨E.val, hE⟩ : Fin 500000))
    (fun a => match a with
      | ⟨0, _⟩ => by show r.val = 0 + r.val * (0 + 1); omega
      | ⟨1, _⟩ => by show E.val = 0 + E.val * (0 + 1); omega)

theorem win_src (c : Dev nD) (E : Fin 507904) (hE : E.val < 500000) (k : Fin 128) :
    wSrc m c (ix2 E k) = aEmb m c (ix2 (rowOf (aIdx m c (ix2 (0 : Fin 2) (⟨E.val, hE⟩ : Fin 500000)))) k) :=
  ((congrFun (term_src m c) _).trans
    (Cert.LibRowGather.gather_rows gather_S100000x128_S507904x1_S507904x128_1_0_n_n_0_1_1128 rfl rfl rfl rfl rfl
      (aEmb m c) (idCol0 m c) E k (by decide))).trans
    (congrArg (fun w => aEmb m c (ix2 (rowOf w) k))
      (idCol_apply (aIdx m c) _ 0 (0 : Fin 2) rfl slices_S2x507904_S1x507904_0_0 E hE))

theorem win_dst (c : Dev nD) (E : Fin 507904) (hE : E.val < 500000) (k : Fin 128) :
    wDst m c (ix2 E k) = aEmb m c (ix2 (rowOf (aIdx m c (ix2 (1 : Fin 2) (⟨E.val, hE⟩ : Fin 500000)))) k) :=
  ((congrFun (term_dst m c) _).trans
    (Cert.LibRowGather.gather_rows gather_S100000x128_S507904x1_S507904x128_1_0_n_n_0_1_1128 rfl rfl rfl rfl rfl
      (aEmb m c) (idCol1 m c) E k (by decide))).trans
    (congrArg (fun w => aEmb m c (ix2 (rowOf w) k))
      (idCol_apply (aIdx m c) _ 1 (1 : Fin 2) rfl slices_S2x507904_S1x507904_1_0 E hE))

theorem win_ef (c : Dev nD) (E : Fin 507904) (hE : E.val < 500000) (k : Fin 32) :
    wEf m c (ix2 E k) = aEf m c (ix2 (⟨E.val, hE⟩ : Fin 500000) k) :=
  (congrFun (term_ef m c) _).trans
    (pad_apply_of_inside _ _ _ (aEf m c) _ pads_S500000x32_S507904x32_079040_000 h_S_ (ix2 E k)
      (ix2 (⟨E.val, hE⟩ : Fin 500000) k)
      (fun a => match a with
        | ⟨0, _⟩ => by show E.val = 0 + E.val * (0 + 1); omega
        | ⟨1, _⟩ => by show k.val = 0 + k.val * (0 + 1); omega))

theorem win_w1a (c : Dev nD) (k : Fin 128) (k2 : Fin 256) : wW1a m c (ix2 k k2) = aW1 m c (ix2 (rowA k) k2) :=
  (congrFun (term_w1a m c) _).trans
    (slice2_axis0_apply 0 (aW1 m c) slices_S288x256_S128x256_0_0 k k2 (rowA k) (by show k.val = 0 + k.val; omega))

theorem win_w1b (c : Dev nD) (k : Fin 128) (k2 : Fin 256) : wW1b m c (ix2 k k2) = aW1 m c (ix2 (rowB k) k2) :=
  (congrFun (term_w1b m c) _).trans
    (slice2_axis0_apply 128 (aW1 m c) slices_S288x256_S128x256_128_0 k k2 (rowB k) rfl)

theorem win_w1c (c : Dev nD) (k : Fin 32) (k2 : Fin 256) : wW1c m c (ix2 k k2) = aW1 m c (ix2 (rowC k) k2) :=
  (congrFun (term_w1c m c) _).trans
    (slice2_axis0_apply 256 (aW1 m c) slices_S288x256_S32x256_256_0 k k2 (rowC k) rfl)

theorem win_b1 (c : Dev nD) (k2 : Fin 256) : wB1 m c (ix2 (0 : Fin 1) k2) = aB1 m c (ix1 k2) :=
  (congrFun (term_b1 m c) _).trans (shapeCast_a_1a_apply (aB1 m c) shapeCasts_S256_S1x256 (0 : Fin 1) k2)

theorem win_w2 (c : Dev nD) (k2 : Fin 256) (k3 : Fin 128) : wW2 m c (ix2 k2 k3) = aW2 m c (ix2 k2 k3) :=
  congrFun (term_w2 m c) _

theorem win_b2 (c : Dev nD) (k3 : Fin 128) : wB2 m c (ix2 (0 : Fin 1) k3) = aB2 m c (ix1 k3) :=
  (congrFun (term_b2 m c) _).trans (shapeCast_a_1a_apply (aB2 m c) shapeCasts_S128_S1x128 (0 : Fin 1) k3)

theorem win_w3 (c : Dev nD) (k3 : Fin 128) (o : Fin 2) : wW3 m c (ix2 k3 o) = aW3 m c (ix2 k3 o) :=
  congrFun (term_w3 m c) _

theorem win_b3 (c : Dev nD) (o : Fin 2) : wB3 m c (ix2 (0 : Fin 1) o) = aB3 m c (ix1 o) :=
  (congrFun (term_b3 m c) _).trans (shapeCast_a_1a_apply (aB3 m c) shapeCasts_S2_S1x2 (0 : Fin 1) o)

end Cert.KernelIdeal.Entry

end
-- ==== Proof.KernelRun.lean ====
/-
  The kernel's run, read as a value. After the region the host re-lays the [7936, 128] output array as [507904, 2] and keeps
  its first 500000 rows. Entry (e, o) of the result is therefore entry (P, q) of the output array with 128·P + q = 2·e + o,
  and the edge that entry belongs to, 64·P + q / 2, is e itself, its class q mod 2 is o. For e < 500000 the region found
  row e of the gathered source and destination rows to be the embedding rows of edge e's two node ids, and row e of the
  edge features unchanged, so the result is the specification `edgeOut` of the nine arguments.
-/
import proofs.«403894_j12335146074240_3_alg».proof.Proof.Gen.KernelIdeal.Frame
import proofs.«403894_j12335146074240_3_alg».proof.Proof.Spec
import proofs.«403894_j12335146074240_3_alg».proof.Proof.Blocks
import proofs.«403894_j12335146074240_3_alg».proof.Proof.Windows
import Idealize.ShloMosaic.Lib.Pipeline.Value
import Idealize.ShloMosaic.Lib.ValueIdx
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.EdgeMlp Cert.KernelIdeal.Blocks Cert.KernelIdeal.Entry

variable (m : (ℓ : Loc nD τ sig) → Buf (Elt Ideal) ℓ) (ρ : Dev nD → PrngReg)

/-- The specification at core c's argument arrays. -/
abbrev spec (c : Dev nD) : S500000x2.Idx → EReal :=
  edgeOut (aEmb m c) (aIdx m c) (aEf m c) (aW1 m c) (aB1 m c) (aW2 m c) (aB2 m c) (aW3 m c) (aB3 m c)

/-- The result buffer after the host lines that follow the region: the output array re-laid and cut. -/
theorem tail_term (c : Dev nD) :
    (Pipeline.afterTail₀ cfgs (dats m) 0 (V0 m) [hostOps1] c main_v23 : S500000x2.Idx → EReal)
      = extractStridedSlice S500000x2 ![0, 0] (shapeCast S507904x2 (outArr m c) shapeCasts_S7936x128_S507904x2)
          slices_S507904x2_S500000x2_0_0 := by
  unfold Pipeline.afterTail₀
  show StableHlo.after hostOps1 _ (Proc.devRef .tc main_v23) = _
  after_results
  rw [(Pipeline.withArrays_arr spec0 launch0.win.arr_inj c _ _ 11).trans (final m c)]
  rfl

/-- Where entry (e, o) of the [507904, 2] re-laying sits in the [7936, 128] output array. -/
def arrIdx (e : Fin 500000) (o : Fin 2) : S7936x128.Idx :=
  ix2 (⟨(2 * e.val + o.val) / 128, by have := e.isLt; have := o.isLt; omega⟩ : Fin 7936)
    (⟨(2 * e.val + o.val) % 128, by omega⟩ : Fin 128)

theorem edgeAt_arrIdx (e : Fin 500000) (o : Fin 2) : (edgeAt (arrIdx e o)).val = e.val := by
  have he := e.isLt
  have ho := o.isLt
  show 64 * ((2 * e.val + o.val) / 128) + (2 * e.val + o.val) % 128 / 2 = e.val
  omega

theorem classAt_arrIdx (e : Fin 500000) (o : Fin 2) : classAt (arrIdx e o) = o := by
  have ho := o.isLt
  apply Fin.ext
  show (2 * e.val + o.val) % 128 % 2 = o.val
  omega

/-- The result buffer at (e, o) is the output array at `arrIdx e o`. -/
theorem tail_apply (c : Dev nD) (e : Fin 500000) (o : Fin 2) :
    (Pipeline.afterTail₀ cfgs (dats m) 0 (V0 m) [hostOps1] c main_v23 : S500000x2.Idx → EReal) (ix2 e o)
      = outArr m c (arrIdx e o) := by
  have he := e.isLt
  have ho := o.isLt
  rw [tail_term]
  rw [extractStridedSlice_apply (![0, 0]) _ slices_S507904x2_S500000x2_0_0 (ix2 e o)
    (ix2 (⟨e.val, by omega⟩ : Fin 507904) o) (fun a => by
      match a with
      | ⟨0, _⟩ => show e.val = 0 + e.val; omega
      | ⟨1, _⟩ => show o.val = 0 + o.val; omega)]
  refine shapeCast_apply _ shapeCasts_S7936x128_S507904x2 _ (arrIdx e o) ?_
  rw [Shape.rowMajor_val_two, Shape.rowMajor_val_two]
  show (2 * e.val + o.val) / 128 * 128 + (2 * e.val + o.val) % 128 = e.val * 2 + o.val
  omega

/-- The result buffer is the specification of the arguments. -/
theorem result_eq (c : Dev nD) :
    (Pipeline.afterTail₀ cfgs (dats m) 0 (V0 m) [hostOps1] c main_v23 : S500000x2.Idx → EReal) = spec m c := by
  funext i
  obtain ⟨e, o, rfl⟩ : ∃ (e : Fin 500000) (o : Fin 2), i = ix2 e o := ⟨i 0, i 1, eq_ix2 i⟩
  rw [tail_apply]
  have he := e.isLt
  have hE : (edgeAt (arrIdx e o)).val < 500000 := by rw [edgeAt_arrIdx]; exact he
  have eE : (⟨(edgeAt (arrIdx e o)).val, hE⟩ : Fin 500000) = e := Fin.ext (edgeAt_arrIdx e o)
  unfold outArr outArrOf
  rw [classAt_arrIdx]
  have s1 : ∀ k, V m c main_v6 (ix2 (edgeAt (arrIdx e o)) k) = aEmb m c (ix2 (rowOf (aIdx m c (ix2 (0 : Fin 2) e))) k) :=
    fun k => by have h := win_src m c (edgeAt (arrIdx e o)) hE k; rw [eE] at h; exact h
  have s2 : ∀ k, V m c main_v9 (ix2 (edgeAt (arrIdx e o)) k) = aEmb m c (ix2 (rowOf (aIdx m c (ix2 (1 : Fin 2) e))) k) :=
    fun k => by have h := win_dst m c (edgeAt (arrIdx e o)) hE k; rw [eE] at h; exact h
  have s3 : ∀ k, V m c main_v3 (ix2 (edgeAt (arrIdx e o)) k) = aEf m c (ix2 e k) :=
    fun k => by have h := win_ef m c (edgeAt (arrIdx e o)) hE k; rw [eE] at h; exact h
  have s4 : ∀ k k2, V m c main_v11 (ix2 k k2) = aW1 m c (ix2 (rowA k) k2) := win_w1a m c
  have s5 : ∀ k k2, V m c main_v13 (ix2 k k2) = aW1 m c (ix2 (rowB k) k2) := win_w1b m c
  have s6 : ∀ k k2, V m c main_v15 (ix2 k k2) = aW1 m c (ix2 (rowC k) k2) := win_w1c m c
  have s7 : ∀ k2, V m c main_v18 (ix2 (0 : Fin 1) k2) = aB1 m c (ix1 k2) := win_b1 m c
  have s8 : ∀ k2 k3, V m c main_v16 (ix2 k2 k3) = aW2 m c (ix2 k2 k3) := win_w2 m c
  have s9 : ∀ k3, V m c main_v19 (ix2 (0 : Fin 1) k3) = aB2 m c (ix1 k3) := win_b2 m c
  have s10 : ∀ k3 o', V m c main_v17 (ix2 k3 o') = aW3 m c (ix2 k3 o') := win_w3 m c
  have s11 : ∀ o', V m c main_v20 (ix2 (0 : Fin 1) o') = aB3 m c (ix1 o') := win_b3 m c
  simp only [s1, s2, s3, s4, s5, s6, s7, s8, s9, s10, s11]
  rfl

/-- The kernel's run with its result named: every weakly fair execution ends with the result buffer at the specification
    of the arguments and the arguments unchanged. -/
theorem run : θ_run defs (onTc (τ := τ) (main (F := Ideal))) ⟨m, fun _ => 0, ρ⟩ (fun r => ∀ c : Dev nD,
      r.2.mem ((c.tc : Thread nD τ).loc main_v23) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.RefRead.lean ====
/-
  The reference's result read at an index. Where every node id is non-negative the reference's wrap-around of negative
  ids (`id + 100000` when `id < 0`) does nothing, its gather reads row `rowOf id`, its concatenated row is the three
  pieces, and its single sum over 288 splits into the three sums of the specification.
-/
import proofs.«403894_j12335146074240_3_alg».proof.Proof.Gen.ReferenceIdeal.Read
import proofs.«403894_j12335146074240_3_alg».proof.Proof.Spec
import proofs.«403894_j12335146074240_3_alg».proof.Proof.LibRowGather
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.EdgeMlp

/-- A word whose signed reading is non-negative is not below zero. -/
theorem cmpi_slt_zero_of_nonneg (w : BitVec 32) (h : 0 ≤ w.toInt) : IntOp.cmpi .slt w 0#32 = 0#1 := by
  have hf : w.slt 0#32 = false := by
    rw [Bool.eq_false_iff]
    intro hc
    have h2 := BitVec.slt_iff_toInt_lt.mp hc
    rw [BitVec.toInt_zero] at h2
    omega
  show BitVec.ofBool (w.slt 0#32) = 0#1
  rw [hf]
  rfl

/-- The source ids' column: with a non-negative id the wrap-around keeps the id. -/
theorem start_src (x1 : IVec S2x500000 32) (hpos : ∀ i : S2x500000.Idx, 0 ≤ (x1 i).toInt) (e : Fin 500000) :
    val_main_v7 (F := Ideal) x1 (ix2 e (0 : Fin 1)) = x1 (ix2 (0 : Fin 2) e) := by
  have e0 : idx_main_v0 (idx_main_v1 (idx_main_v7 (ix2 e (0 : Fin 1)))) = ix2 (0 : Fin 2) e :=
    funext fun a => Fin.ext (by
      match a with
      | ⟨0, _⟩ => rfl
      | ⟨1, _⟩ => exact Nat.mod_eq_of_lt e.isLt)
  rw [val_main_v7_apply, val_main_v6_apply, val_main_v3_apply, val_main_v2_apply, val_main_c_apply, val_main_v1_apply,
    val_main_v0_apply, e0, cmpi_slt_zero_of_nonneg _ (hpos _), select_zero]

/-- The destination ids' column. -/
theorem start_dst (x1 : IVec S2x500000 32) (hpos : ∀ i : S2x500000.Idx, 0 ≤ (x1 i).toInt) (e : Fin 500000) :
    val_main_v16 (F := Ideal) x1 (ix2 e (0 : Fin 1)) = x1 (ix2 (1 : Fin 2) e) := by
  have e0 : idx_main_v9 (idx_main_v10 (idx_main_v16 (ix2 e (0 : Fin 1)))) = ix2 (1 : Fin 2) e :=
    funext fun a => Fin.ext (by
      match a with
      | ⟨0, _⟩ => rfl
      | ⟨1, _⟩ => exact Nat.mod_eq_of_lt e.isLt)
  rw [val_main_v16_apply, val_main_v15_apply, val_main_v12_apply, val_main_v11_apply, val_main_c_1_apply, val_main_v10_apply,
    val_main_v9_apply, e0, cmpi_slt_zero_of_nonneg _ (hpos _), select_zero]

/-- The first gather reads the table's row named by the source id. -/
theorem gather_src (x0 : FVec Ideal S100000x128 .f32) (x1 : IVec S2x500000 32)
    (hpos : ∀ i : S2x500000.Idx, 0 ≤ (x1 i).toInt) (e : Fin 500000) (k : Fin 128) :
    val_main_v8 (F := Ideal) x0 x1 (ix2 e k) = x0 (ix2 (rowOf (x1 (ix2 (0 : Fin 2) e))) k) := by
  unfold val_main_v8
  rw [Cert.LibRowGather.gather_rows gather_S100000x128_S500000x1_S500000x128_1_0_n_n_0_1_1128 rfl rfl rfl rfl rfl
    x0 (val_main_v7 (F := Ideal) x1) e k (by decide)]
  simp only [start_src x1 hpos e]
  rfl

/-- The second gather reads the row named by the destination id. -/
theorem gather_dst (x0 : FVec Ideal S100000x128 .f32) (x1 : IVec S2x500000 32)
    (hpos : ∀ i : S2x500000.Idx, 0 ≤ (x1 i).toInt) (e : Fin 500000) (k : Fin 128) :
    val_main_v17 (F := Ideal) x0 x1 (ix2 e k) = x0 (ix2 (rowOf (x1 (ix2 (1 : Fin 2) e))) k) := by
  unfold val_main_v17
  rw [Cert.LibRowGather.gather_rows gather_S100000x128_S500000x1_S500000x128_1_0_n_n_0_1_1128 rfl rfl rfl rfl rfl
    x0 (val_main_v16 (F := Ideal) x1) e k (by decide)]
  simp only [start_dst x1 hpos e]
  rfl

/-- Columns 0…127 of the concatenated row are the first piece. -/
theorem cat_A (x0 : FVec Ideal S100000x128 .f32) (x1 : IVec S2x500000 32) (x2 : FVec Ideal S500000x32 .f32)
    (e : Fin 500000) (k : Fin 128) :
    val_main_v18 (F := Ideal) x0 x1 x2 (ix2 e (rowA k)) = val_main_v8 (F := Ideal) x0 x1 (ix2 e k) := by
  unfold val_main_v18
  refine concatenate_apply_piece (1 : Fin 2) _ _ (ix2 e (rowA k)) 0 ?_ S500000x128
    (val_main_v8 (F := Ideal) x0 x1) ?_ rfl 0 ?_ (ix2 e k) (fun b hb => ?_) ?_
  · show (0 : Nat) < 3
    omega
  · rfl
  · rfl
  · match b with
    | ⟨0, _⟩ => rfl
    | ⟨1, _⟩ => exact absurd rfl hb
  · exact Nat.zero_add k.val

/-- Columns 128…255 are the second piece. -/
theorem cat_B (x0 : FVec Ideal S100000x128 .f32) (x1 : IVec S2x500000 32) (x2 : FVec Ideal S500000x32 .f32)
    (e : Fin 500000) (k : Fin 128) :
    val_main_v18 (F := Ideal) x0 x1 x2 (ix2 e (rowB k)) = val_main_v17 (F := Ideal) x0 x1 (ix2 e k) := by
  unfold val_main_v18
  refine concatenate_apply_piece (1 : Fin 2) _ _ (ix2 e (rowB k)) 1 ?_ S500000x128
    (val_main_v17 (F := Ideal) x0 x1) ?_ rfl 128 ?_ (ix2 e k) (fun b hb => ?_) ?_
  · show (1 : Nat) < 3
    omega
  · rfl
  · rfl
  · match b with
    | ⟨0, _⟩ => rfl
    | ⟨1, _⟩ => exact absurd rfl hb
  · rfl

/-- Columns 256…287 are the edge features. -/
theorem cat_C (x0 : FVec Ideal S100000x128 .f32) (x1 : IVec S2x500000 32) (x2 : FVec Ideal S500000x32 .f32)
    (e : Fin 500000) (k : Fin 32) :
    val_main_v18 (F := Ideal) x0 x1 x2 (ix2 e (rowC k)) = x2 (ix2 e k) := by
  unfold val_main_v18
  refine concatenate_apply_piece (1 : Fin 2) _ _ (ix2 e (rowC k)) 2 ?_ S500000x32
    (x2) ?_ rfl 256 ?_ (ix2 e k) (fun b hb => ?_) ?_
  · show (2 : Nat) < 3
    omega
  · rfl
  · rfl
  · match b with
    | ⟨0, _⟩ => rfl
    | ⟨1, _⟩ => exact absurd rfl hb
  · rfl

/-- The first hidden layer at edge `e`, unit `k2`: the rectified sum of the three partial products and the bias. -/
def hid1 (x0 : FVec Ideal S100000x128 .f32) (x1 : IVec S2x500000 32) (x2 : FVec Ideal S500000x32 .f32)
    (x3 : FVec Ideal S288x256 .f32) (x4 : FVec Ideal S256 .f32) (e : Fin 500000) (k2 : Fin 256) : EReal :=
  max (((((∑ k : Fin 128, x0 (ix2 (rowOf (x1 (ix2 (0 : Fin 2) e))) k) * x3 (ix2 (rowA k) k2))
          + (∑ k : Fin 128, x0 (ix2 (rowOf (x1 (ix2 (1 : Fin 2) e))) k) * x3 (ix2 (rowB k) k2)))
          + (∑ k : Fin 32, x2 (ix2 e k) * x3 (ix2 (rowC k) k2))) + x4 (ix1 k2))) zero

/-- The second hidden layer at edge `e`, unit `k3`. -/
def hid2 (x0 : FVec Ideal S100000x128 .f32) (x1 : IVec S2x500000 32) (x2 : FVec Ideal S500000x32 .f32)
    (x3 : FVec Ideal S288x256 .f32) (x4 : FVec Ideal S256 .f32) (x5 : FVec Ideal S256x128 .f32) (x6 : FVec Ideal S128 .f32)
    (e : Fin 500000) (k3 : Fin 128) : EReal :=
  max ((∑ k2 : Fin 256, hid1 x0 x1 x2 x3 x4 e k2 * x5 (ix2 k2 k3)) + x6 (ix1 k3)) zero

/-- The first product at (e, k2): the single sum over 288 columns, split at the seams of the concatenated row. -/
theorem prod1_at (x0 : FVec Ideal S100000x128 .f32) (x1 : IVec S2x500000 32) (x2 : FVec Ideal S500000x32 .f32)
    (x3 : FVec Ideal S288x256 .f32) (hpos : ∀ i : S2x500000.Idx, 0 ≤ (x1 i).toInt) (e : Fin 500000) (k2 : Fin 256) :
    val_main_v19 (F := Ideal) x0 x1 x2 x3 (ix2 e k2)
      = ((∑ k : Fin 128, x0 (ix2 (rowOf (x1 (ix2 (0 : Fin 2) e))) k) * x3 (ix2 (rowA k) k2))
          + (∑ k : Fin 128, x0 (ix2 (rowOf (x1 (ix2 (1 : Fin 2) e))) k) * x3 (ix2 (rowB k) k2)))
          + (∑ k : Fin 32, x2 (ix2 e k) * x3 (ix2 (rowC k) k2)) := by
  have el : ∀ k : Fin 288, lidx_main_v19 (ix2 e k2) k = ix2 e k := fun k => funext fun a => Fin.ext (by
    match a with
    | ⟨0, _⟩ => rfl
    | ⟨1, _⟩ => rfl)
  have er : ∀ k : Fin 288, ridx_main_v19 (ix2 e k2) k = ix2 k k2 := fun k => funext fun a => Fin.ext (by
    match a with
    | ⟨0, _⟩ => rfl
    | ⟨1, _⟩ => rfl)
  rw [val_main_v19_apply, sum_split288]
  simp only [el, er, cat_A, cat_B, cat_C, gather_src x0 x1 hpos, gather_dst x0 x1 hpos]

/-- The first rectifier at (e, k2). -/
theorem hid1_at (x0 : FVec Ideal S100000x128 .f32) (x1 : IVec S2x500000 32) (x2 : FVec Ideal S500000x32 .f32)
    (x3 : FVec Ideal S288x256 .f32) (x4 : FVec Ideal S256 .f32)
    (hpos : ∀ i : S2x500000.Idx, 0 ≤ (x1 i).toInt) (e : Fin 500000) (k2 : Fin 256) :
    val_main_v23 (F := Ideal) x0 x1 x2 x3 x4 (ix2 e k2) = hid1 x0 x1 x2 x3 x4 e k2 := by
  have eb : idx_main_v20 (idx_main_v21 (ix2 e k2)) = ix1 k2 := funext fun a => Fin.ext (by
    match a with
    | ⟨0, _⟩ => rfl)
  rw [val_main_v23_apply, val_main_v22_apply, val_main_v21_apply, val_main_v20_apply, val_main_call0_v0_apply,
    val_main_call0_cst_apply, eb, prod1_at x0 x1 x2 x3 hpos e k2]
  rfl

/-- The second rectifier at (e, k3). -/
theorem hid2_at (x0 : FVec Ideal S100000x128 .f32) (x1 : IVec S2x500000 32) (x2 : FVec Ideal S500000x32 .f32)
    (x3 : FVec Ideal S288x256 .f32) (x4 : FVec Ideal S256 .f32) (x5 : FVec Ideal S256x128 .f32) (x6 : FVec Ideal S128 .f32)
    (hpos : ∀ i : S2x500000.Idx, 0 ≤ (x1 i).toInt) (e : Fin 500000) (k3 : Fin 128) :
    val_main_v28 (F := Ideal) x0 x1 x2 x3 x4 x5 x6 (ix2 e k3) = hid2 x0 x1 x2 x3 x4 x5 x6 e k3 := by
  have el : ∀ k : Fin 256, lidx_main_v24 (ix2 e k3) k = ix2 e k := fun k => funext fun a => Fin.ext (by
    match a with
    | ⟨0, _⟩ => rfl
    | ⟨1, _⟩ => rfl)
  have er : ∀ k : Fin 256, ridx_main_v24 (ix2 e k3) k = ix2 k k3 := fun k => funext fun a => Fin.ext (by
    match a with
    | ⟨0, _⟩ => rfl
    | ⟨1, _⟩ => rfl)
  have eb : idx_main_v25 (idx_main_v26 (ix2 e k3)) = ix1 k3 := funext fun a => Fin.ext (by
    match a with
    | ⟨0, _⟩ => rfl)
  rw [val_main_v28_apply, val_main_v27_apply, val_main_v26_apply, val_main_v25_apply, val_main_call1_v0_apply,
    val_main_call1_cst_apply, eb, val_main_v24_apply]
  simp only [el, er, hid1_at x0 x1 x2 x3 x4 hpos]
  rfl

/-- The last layer at (e, o). -/
theorem out_at (x0 : FVec Ideal S100000x128 .f32) (x1 : IVec S2x500000 32) (x2 : FVec Ideal S500000x32 .f32)
    (x3 : FVec Ideal S288x256 .f32) (x4 : FVec Ideal S256 .f32) (x5 : FVec Ideal S256x128 .f32) (x6 : FVec Ideal S128 .f32)
    (x7 : FVec Ideal S128x2 .f32) (x8 : FVec Ideal S2 .f32)
    (hpos : ∀ i : S2x500000.Idx, 0 ≤ (x1 i).toInt) (e : Fin 500000) (o : Fin 2) :
    val_main_v32 (F := Ideal) x0 x1 x2 x3 x4 x5 x6 x7 x8 (ix2 e o)
      = (∑ k3 : Fin 128, hid2 x0 x1 x2 x3 x4 x5 x6 e k3 * x7 (ix2 k3 o)) + x8 (ix1 o) := by
  have el : ∀ k : Fin 128, lidx_main_v29 (ix2 e o) k = ix2 e k := fun k => funext fun a => Fin.ext (by
    match a with
    | ⟨0, _⟩ => rfl
    | ⟨1, _⟩ => rfl)
  have er : ∀ k : Fin 128, ridx_main_v29 (ix2 e o) k = ix2 k o := fun k => funext fun a => Fin.ext (by
    match a with
    | ⟨0, _⟩ => rfl
    | ⟨1, _⟩ => rfl)
  have eb : idx_main_v30 (idx_main_v31 (ix2 e o)) = ix1 o := funext fun a => Fin.ext (by
    match a with
    | ⟨0, _⟩ => rfl)
  rw [val_main_v32_apply, val_main_v31_apply, val_main_v30_apply, eb, val_main_v29_apply]
  simp only [el, er, hid2_at x0 x1 x2 x3 x4 x5 x6 hpos]
  rfl

/-- With non-negative node ids the reference's last stage is the specification, index by index. -/
theorem ref_eq (x0 : FVec Ideal S100000x128 .f32) (x1 : IVec S2x500000 32) (x2 : FVec Ideal S500000x32 .f32)
    (x3 : FVec Ideal S288x256 .f32) (x4 : FVec Ideal S256 .f32) (x5 : FVec Ideal S256x128 .f32) (x6 : FVec Ideal S128 .f32)
    (x7 : FVec Ideal S128x2 .f32) (x8 : FVec Ideal S2 .f32)
    (hpos : ∀ i : S2x500000.Idx, 0 ≤ (x1 i).toInt) :
    val_main_v32 (F := Ideal) x0 x1 x2 x3 x4 x5 x6 x7 x8 = edgeOut x0 x1 x2 x3 x4 x5 x6 x7 x8 := by
  funext i
  obtain ⟨e, o, rfl⟩ : ∃ (e : Fin 500000) (o : Fin 2), i = ix2 e o := ⟨i 0, i 1, eq_ix2 i⟩
  rw [out_at x0 x1 x2 x3 x4 x5 x6 x7 x8 hpos e o]
  rfl

end Cert.ReferenceIdeal.RefValue

end
-- ==== Proof.NonNeg.lean ====
/-
  What the precondition says of the node ids. Its last conjunct is `all (ids ≥ 0)`, a signed comparison of every id with
  zero reduced by `and`; the whole predicate being true, every id is non-negative as a signed integer.
-/
import proofs.«403894_j12335146074240_3_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.EdgeIds

open Idealize.ShloMosaic Cert.Pre_finite_inputs

variable [Cert.Pre_finite_inputs.Facts]

instance : Subsingleton S_.Idx := ⟨fun a b => funext fun d => d.elim0⟩

/-- Under the precondition every node id is non-negative. -/
theorem nonneg (a0 : FVec Ideal S100000x128 .f32) (a1 : IVec S2x500000 32) (a2 : FVec Ideal S500000x32 .f32)
    (a3 : FVec Ideal S288x256 .f32) (a4 : FVec Ideal S256 .f32) (a5 : FVec Ideal S256x128 .f32) (a6 : FVec Ideal S128 .f32)
    (a7 : FVec Ideal S128x2 .f32) (a8 : FVec Ideal S2 .f32)
    (h : Cert.Pre_finite_inputs.fn (F := Ideal) a0 a1 a2 a3 a4 a5 a6 a7 a8 = fun _ => 1#1) (i : S2x500000.Idx) :
    0 ≤ (a1 i).toInt := by
  have h0 := congrFun h ValueIdx.ix0
  dsimp only [Cert.Pre_finite_inputs.fn, Cert.Pre_finite_inputs.fn_part1, Cert.Pre_finite_inputs.fn_part2] at h0
  have h1 := (IntOp.andi_eq_one.mp h0).2
  have h2 := Host.reduce_andi_all _ _ _ _ _ h1 i
  have h3 : IntOp.cmpi .sge (a1 i) 0#32 = 1#1 := h2
  simp only [IntOp.cmpi, StableHlo.Predicate.ofBool_eq_one_iff, BitVec.sle, decide_eq_true_eq] at h3
  simpa using h3

end Cert.EdgeIds

end
-- ==== Proof.lean ====
/-
  The certificate: a three-layer perceptron over the edges of a graph, fused in one kernel against its plain reference.

  For each of 500000 edges both programs form the row [emb[src] ‖ emb[dst] ‖ edge features] (288 entries) and apply
    h1 = max (row · w1 + b1) 0,  h2 = max (h1 · w2 + b2) 0,  out = h2 · w3 + b3.
  The kernel gathers the two embedding rows on the host, pads the edges to 62 tiles of 8192, runs the three layers tile by
  tile with the first product split along the row's three pieces, writes each tile's [8192, 2] result as a dense [128, 128]
  block, and the host re-lays the blocks and drops the padding. On the extended reals the casts to bf16 are the identity and
  the split product is the same sum regrouped (addition is commutative and associative: no finiteness is used), so both
  programs compute `Cert.EdgeMlp.edgeOut` of the nine arguments.

  The one place they differ as printed is a NEGATIVE node id: the reference wraps it (id + 100000) before its gather clamps,
  the kernel's gather only clamps it (to row 0). The precondition therefore asks, beside finite floats, that every node id
  be non-negative; ids past the table's end are clamped alike by both and need no bound.

  The modules: Spec (the function), Payload (the kernel body's block at an index), Blocks (blocks to the array), Windows
  (what the region finds in its inputs), KernelRun (the kernel's run with its result named), RefRead (the reference's result
  at an index), NonNeg (the precondition read), LibRowGather (a gather of table rows at an index).
-/
import proofs.«403894_j12335146074240_3_alg».proof.Defs
import proofs.«403894_j12335146074240_3_alg».proof.Proof.Gen.Kernel
import proofs.«403894_j12335146074240_3_alg».proof.Proof.Gen.Kernel.Skeleton
import proofs.«403894_j12335146074240_3_alg».proof.Proof.Gen.Kernel.Launch
import proofs.«403894_j12335146074240_3_alg».proof.Proof.Gen.Kernel.Points
import proofs.«403894_j12335146074240_3_alg».proof.Proof.Gen.Kernel.Frame
import proofs.«403894_j12335146074240_3_alg».proof.Proof.Gen.KernelIdeal
import proofs.«403894_j12335146074240_3_alg».proof.Proof.Gen.KernelIdeal.Skeleton
import proofs.«403894_j12335146074240_3_alg».proof.Proof.Gen.KernelIdeal.Launch
import proofs.«403894_j12335146074240_3_alg».proof.Proof.Gen.KernelIdeal.Points
import proofs.«403894_j12335146074240_3_alg».proof.Proof.Gen.KernelIdeal.Frame
import proofs.«403894_j12335146074240_3_alg».proof.Proof.Gen.ReferenceIdeal
import proofs.«403894_j12335146074240_3_alg».proof.Proof.Gen.ReferenceIdeal.Run
import proofs.«403894_j12335146074240_3_alg».proof.Proof.Gen.ReferenceIdeal.Read
import proofs.«403894_j12335146074240_3_alg».proof.Proof.Gen.Pre_finite_inputs
import proofs.«403894_j12335146074240_3_alg».proof.Proof.KernelRun
import proofs.«403894_j12335146074240_3_alg».proof.Proof.RefRead
import proofs.«403894_j12335146074240_3_alg».proof.Proof.NonNeg
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the specification of their arguments, which agree; the reference's needs the node
    ids non-negative, which the precondition says of the kernel's arguments and hence of the reference's. -/
theorem algebraic : Cert.algebraic_KernelIdeal_ReferenceIdeal := by
  intro m ρ m' ρ' hpre hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v32_eq, e0, e1, e2, e3, e4, e5, e6, e7, e8]
  exact Cert.ReferenceIdeal.RefValue.ref_eq _ _ _ _ _ _ _ _ _ (Cert.EdgeIds.nonneg _ _ _ _ _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
